-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x200 : Shape := ⟨2, ![1433, 200]⟩
abbrev S200 : Shape := ⟨1, ![200]⟩
abbrev S200x80 : Shape := ⟨2, ![200, 80]⟩
abbrev S80 : Shape := ⟨1, ![80]⟩
abbrev S80x7 : Shape := ⟨2, ![80, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x200 : S_.BroadcastsInDim S1433x200 (![] : Fin 0 → Fin S1433x200.rank)
  reducesTo_S1433x200_S_d0_1 : S1433x200.ReducesTo [0, 1] S_
  bcast_S_S200 : S_.BroadcastsInDim S200 (![] : Fin 0 → Fin S200.rank)
  reducesTo_S200_S_d0 : S200.ReducesTo [0] S_
  bcast_S_S200x80 : S_.BroadcastsInDim S200x80 (![] : Fin 0 → Fin S200x80.rank)
  reducesTo_S200x80_S_d0_1 : S200x80.ReducesTo [0, 1] S_
  bcast_S_S80 : S_.BroadcastsInDim S80 (![] : Fin 0 → Fin S80.rank)
  reducesTo_S80_S_d0 : S80.ReducesTo [0] S_
  bcast_S_S80x7 : S_.BroadcastsInDim S80x7 (![] : Fin 0 → Fin S80x7.rank)
  reducesTo_S80x7_S_d0_1 : S80x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg7 : FVec F S7 .f32) (main_v33 : IVec S_ 1) : IVec S_ 1 :=
  let main_v34 : FVec F S7 .f32 := Host.absf main_arg7
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg4 : FVec F S200x80 .f32) (main_arg5 : FVec F S80 .f32) (main_arg6 : FVec F S80x7 .f32) (main_arg7 : FVec F S7 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200x80 .f32 := Host.absf main_arg4
  let main_cst_6 : FVec F S_ .f32 := constant S_ .f32 0x7F800000#32
  let main_v20 : FVec F S200x80 .f32 := broadcastInDim S200x80 ![] bcast_S_S200x80 main_cst_6
  let main_v21 : IVec S200x80 1 := cmpf .olt main_v19 main_v20
  let main_c_7 : IVec S_ 1 := constantI S_ 1 1#1
  let main_v22 : IVec S_ 1 := (fun x v => Host.reduce IntOp.andi x v reducesTo_S200x80_S_d0_1 h_S_) main_v21 main_c_7
  let main_v23 : IVec S_ 1 := andi main_v18 main_v22
  let main_v24 : FVec F S80 .f32 := Host.absf main_arg5
  let main_cst_8 : FVec F S_ .f32 := constant S_ .f32 0x7F800000#32
  let main_v25 : FVec F S80 .f32 := broadcastInDim S80 ![] bcast_S_S80 main_cst_8
  let main_v26 : IVec S80 1 := cmpf .olt main_v24 main_v25
  let main_c_9 : IVec S_ 1 := constantI S_ 1 1#1
  let main_v27 : IVec S_ 1 := (fun x v => Host.reduce IntOp.andi x v reducesTo_S80_S_d0 h_S_) main_v26 main_c_9
  let main_v28 : IVec S_ 1 := andi main_v23 main_v27
  let main_v29 : FVec F S80x7 .f32 := Host.absf main_arg6
  let main_cst_10 : FVec F S_ .f32 := constant S_ .f32 0x7F800000#32
  let main_v30 : FVec F S80x7 .f32 := broadcastInDim S80x7 ![] bcast_S_S80x7 main_cst_10
  let main_v31 : IVec S80x7 1 := cmpf .olt main_v29 main_v30
  let main_c_11 : IVec S_ 1 := constantI S_ 1 1#1
  let main_v32 : IVec S_ 1 := (fun x v => Host.reduce IntOp.andi x v reducesTo_S80x7_S_d0_1 h_S_) main_v31 main_c_11
  let main_v33 : IVec S_ 1 := andi main_v28 main_v32
  fn_part2 (F := F) main_arg7 main_v33

def fn {F : FTy → Type} [FloatOps F] (main_arg0 : FVec F S10000x1433 .f32) (main_arg1 : FVec F S10000x10000 .f32) (main_arg2 : FVec F S1433x200 .f32) (main_arg3 : FVec F S200 .f32) (main_arg4 : FVec F S200x80 .f32) (main_arg5 : FVec F S80 .f32) (main_arg6 : FVec F S80x7 .f32) (main_arg7 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x200 .f32 := Host.absf main_arg2
  let main_cst_2 : FVec F S_ .f32 := constant S_ .f32 0x7F800000#32
  let main_v10 : FVec F S1433x200 .f32 := broadcastInDim S1433x200 ![] bcast_S_S1433x200 main_cst_2
  let main_v11 : IVec S1433x200 1 := cmpf .olt main_v9 main_v10
  let main_c_3 : IVec S_ 1 := constantI S_ 1 1#1
  let main_v12 : IVec S_ 1 := (fun x v => Host.reduce IntOp.andi x v reducesTo_S1433x200_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg4 main_arg5 main_arg6 main_arg7 main_v13 main_v16
-- ==== Kernel.lean ====
abbrev S10000x1433 : Shape := ⟨2, ![10000, 1433]⟩
abbrev S10000x10000 : Shape := ⟨2, ![10000, 10000]⟩
abbrev S1433x200 : Shape := ⟨2, ![1433, 200]⟩
abbrev S200 : Shape := ⟨1, ![200]⟩
abbrev S200x80 : Shape := ⟨2, ![200, 80]⟩
abbrev S80 : Shape := ⟨1, ![80]⟩
abbrev S80x7 : Shape := ⟨2, ![80, 7]⟩
abbrev S7 : Shape := ⟨1, ![7]⟩
abbrev S_ : Shape := ⟨0, ![]⟩
abbrev S1433x256 : Shape := ⟨2, ![1433, 256]⟩
abbrev S10000x256 : Shape := ⟨2, ![10000, 256]⟩
abbrev S1000x1433 : Shape := ⟨2, ![1000, 1433]⟩
abbrev S1000x256 : Shape := ⟨2, ![1000, 256]⟩
abbrev S1x200 : Shape := ⟨2, ![1, 200]⟩
abbrev S1x256 : Shape := ⟨2, ![1, 256]⟩
abbrev S256x128 : Shape := ⟨2, ![256, 128]⟩
abbrev S1x128 : Shape := ⟨2, ![1, 128]⟩
abbrev S10000x128 : Shape := ⟨2, ![10000, 128]⟩
abbrev S400x10000 : Shape := ⟨2, ![400, 10000]⟩
abbrev S400x128 : Shape := ⟨2, ![400, 128]⟩
abbrev S400x256 : Shape := ⟨2, ![400, 256]⟩
abbrev S1x80 : Shape := ⟨2, ![1, 80]⟩
abbrev S128x128 : Shape := ⟨2, ![128, 128]⟩
abbrev S1x7 : Shape := ⟨2, ![1, 7]⟩
abbrev S10000x7 : Shape := ⟨2, ![10000, 7]⟩

abbrev nBuf : Space → Nat
  | .hbm => 35
  | .vmem => 21
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x200, .f32⟩
  | .hbm, ⟨3, _⟩ => ⟨S200, .f32⟩
  | .hbm, ⟨4, _⟩ => ⟨S200x80, .f32⟩
  | .hbm, ⟨5, _⟩ => ⟨S80, .f32⟩
  | .hbm, ⟨6, _⟩ => ⟨S80x7, .f32⟩
  | .hbm, ⟨7, _⟩ => ⟨S7, .f32⟩
  | .hbm, ⟨8, _⟩ => ⟨S_, .i32⟩
  | .hbm, ⟨9, _⟩ => ⟨S_, .f32⟩
  | .hbm, ⟨10, _⟩ => ⟨S1433x256, .f32⟩
  | .hbm, ⟨11, _⟩ => ⟨S10000x256, .f32⟩
  | .hbm, ⟨12, _⟩ => ⟨S1x200, .f32⟩
  | .hbm, ⟨13, _⟩ => ⟨S_, .i32⟩
  | .hbm, ⟨14, _⟩ => ⟨S_, .f32⟩
  | .hbm, ⟨15, _⟩ => ⟨S1x256, .f32⟩
  | .hbm, ⟨16, _⟩ => ⟨S_, .i32⟩
  | .hbm, ⟨17, _⟩ => ⟨S_, .f32⟩
  | .hbm, ⟨18, _⟩ => ⟨S256x128, .f32⟩
  | .hbm, ⟨19, _⟩ => ⟨S_, .f32⟩
  | .hbm, ⟨20, _⟩ => ⟨S1x128, .f32⟩
  | .hbm, ⟨21, _⟩ => ⟨S10000x128, .f32⟩
  | .hbm, ⟨22, _⟩ => ⟨S1x80, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S_, .f32⟩
  | .hbm, ⟨28, _⟩ => ⟨S128x128, .f32⟩
  | .hbm, ⟨29, _⟩ => ⟨S1x7, .f32⟩
  | .hbm, ⟨30, _⟩ => ⟨S_, .i32⟩
  | .hbm, ⟨31, _⟩ => ⟨S_, .f32⟩
  | .hbm, ⟨32, _⟩ => ⟨S1x128, .f32⟩
  | .hbm, ⟨33, _⟩ => ⟨S10000x128, .f32⟩
  | .hbm, ⟨34, _⟩ => ⟨S10000x7, .f32⟩
  | .local _ .vmem, ⟨0, _⟩ => ⟨S1000x1433, .f32⟩
  | .local _ .vmem, ⟨1, _⟩ => ⟨S1000x1433, .f32⟩
  | .local _ .vmem, ⟨2, _⟩ => ⟨S1433x256, .f32⟩
  | .local _ .vmem, ⟨3, _⟩ => ⟨S1000x256, .f32⟩
  | .local _ .vmem, ⟨4, _⟩ => ⟨S1000x256, .f32⟩
  | .local _ .vmem, ⟨5, _⟩ => ⟨S400x10000, .f32⟩
  | .local _ .vmem, ⟨6, _⟩ => ⟨S400x10000, .f32⟩
  | .local _ .vmem, ⟨7, _⟩ => ⟨S10000x256, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S400x128, .f32⟩
  | .local _ .vmem, ⟨12, _⟩ => ⟨S400x128, .f32⟩
  | .local _ .vmem, ⟨13, _⟩ => ⟨S400x10000, .f32⟩
  | .local _ .vmem, ⟨14, _⟩ => ⟨S400x10000, .f32⟩
  | .local _ .vmem, ⟨15, _⟩ => ⟨S10000x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S400x128, .f32⟩
  | .local _ .vmem, ⟨20, _⟩ => ⟨S400x128, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_call3_v0 : Ref sig .tc := ⟨.hbm, 24, rfl⟩
abbrev main_v8 : Ref sig .tc := ⟨.hbm, 25, rfl⟩
abbrev main_c_3 : Ref sig .tc := ⟨.hbm, 26, rfl⟩
abbrev main_call4_v0 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_call5_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  pads_S1433x200_S1433x256_000_0560 : S1433x200.Pads (![0, 0] : Fin 2 → Nat) ![0, 56] ![0, 0] S1433x256
  h_S_ : 0 < S_.numel
  inb_S1000x1433_S1000x1433_0_0 : ∀ a, (![0, 0] : Fin 2 → Nat) a + S1000x1433.size a ≤ S1000x1433.size a
  h_S1000x1433 : 0 < S1000x1433.numel
  inb_S1433x256_S1433x256_0_0 : ∀ a, (![0, 0] : Fin 2 → Nat) a + S1433x256.size a ≤ S1433x256.size a
  h_S1433x256 : 0 < S1433x256.numel
  shapeCasts_S1433x256_S1433x256 : S1433x256.ShapeCasts S1433x256
  inb_S1000x256_S1000x256_0_0 : ∀ a, (![0, 0] : Fin 2 → Nat) a + S1000x256.size a ≤ S1000x256.size a
  h_S1000x256 : 0 < S1000x256.numel
  bcast_S200_S1x200_1 : S200.BroadcastsInDim S1x200 (![1] : Fin 1 → Fin S1x200.rank)
  pads_S1x200_S1x256_000_0560 : S1x200.Pads (![0, 0] : Fin 2 → Nat) ![0, 56] ![0, 0] S1x256
  pads_S200x80_S256x128_0560_0480 : S200x80.Pads (![0, 0] : Fin 2 → Nat) ![56, 48] ![0, 0] S256x128
  bcast_S_S1x128 : S_.BroadcastsInDim S1x128 (![] : Fin 0 → Fin S1x128.rank)
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S400x128_S400x128_0_0 : ∀ a, (![0, 0] : Fin 2 → Nat) a + S400x128.size a ≤ S400x128.size a
  h_S400x128 : 0 < S400x128.numel
  bcast_S80_S1x80_1 : S80.BroadcastsInDim S1x80 (![1] : Fin 1 → Fin S1x80.rank)
  pads_S1x80_S1x128_000_0480 : S1x80.Pads (![0, 0] : Fin 2 → Nat) ![0, 48] ![0, 0] S1x128
  pads_S80x7_S128x128_0480_01210 : S80x7.Pads (![0, 0] : Fin 2 → Nat) ![48, 121] ![0, 0] S128x128
  bcast_S7_S1x7_1 : S7.BroadcastsInDim S1x7 (![1] : Fin 1 → Fin S1x7.rank)
  pads_S1x7_S1x128_000_01210 : S1x7.Pads (![0, 0] : Fin 2 → Nat) ![0, 121] ![0, 0] S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S10000x128_S10000x7_0_0 : S10000x128.Slices ![0, 0] S10000x7
  dot_S1000x1433_S1433x256_S1000x256_1_0_0_1_n_n_wf : DotDims.WF S1000x1433 S1433x256 S1000x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S10000x1433.size a
  hwx0_0 : ∀ i : grid0.Coords, EltTy.bits .f32 = 32 ∨ (Rect.block (s := S10000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x256.size a ≤ S1433x256.size a
  hwx0_1 : ∀ i : grid0.Coords, EltTy.bits .f32 = 32 ∨ (Rect.block (s := S1433x256) S1433x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)

variable [Facts₀]

def dot_S1000x1433_S1433x256_S1000x256_1_0_0_1_n_n : DotDims S1000x1433 S1433x256 S1000x256 where
  lhsContracting := [1]
  rhsContracting := [0]
  lhsNonContracting := [0]
  rhsNonContracting := [1]
  lhsBatch := []
  rhsBatch := []
  wf := dot_S1000x1433_S1433x256_S1000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1433x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x200 : Shape := ⟨2, ![1433, 200]⟩
abbrev S200 : Shape := ⟨1, ![200]⟩
abbrev S200x80 : Shape := ⟨2, ![200, 80]⟩
abbrev S80 : Shape := ⟨1, ![80]⟩
abbrev S80x7 : Shape := ⟨2, ![80, 7]⟩
abbrev S7 : Shape := ⟨1, ![7]⟩
abbrev S10000x200 : Shape := ⟨2, ![10000, 200]⟩
abbrev S1x200 : Shape := ⟨2, ![1, 200]⟩
abbrev S_ : Shape := ⟨0, ![]⟩
abbrev S10000x80 : Shape := ⟨2, ![10000, 80]⟩
abbrev S1x80 : Shape := ⟨2, ![1, 80]⟩
abbrev S10000x7 : Shape := ⟨2, ![10000, 7]⟩
abbrev S1x7 : Shape := ⟨2, ![1, 7]⟩

abbrev nBuf : Space → Nat
  | .hbm => 28
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x200, .f32⟩
  | .hbm, ⟨3, _⟩ => ⟨S200, .f32⟩
  | .hbm, ⟨4, _⟩ => ⟨S200x80, .f32⟩
  | .hbm, ⟨5, _⟩ => ⟨S80, .f32⟩
  | .hbm, ⟨6, _⟩ => ⟨S80x7, .f32⟩
  | .hbm, ⟨7, _⟩ => ⟨S7, .f32⟩
  | .hbm, ⟨8, _⟩ => ⟨S10000x200, .f32⟩
  | .hbm, ⟨9, _⟩ => ⟨S10000x200, .f32⟩
  | .hbm, ⟨10, _⟩ => ⟨S1x200, .f32⟩
  | .hbm, ⟨11, _⟩ => ⟨S10000x200, .f32⟩
  | .hbm, ⟨12, _⟩ => ⟨S10000x200, .f32⟩
  | .hbm, ⟨13, _⟩ => ⟨S_, .f32⟩
  | .hbm, ⟨14, _⟩ => ⟨S10000x200, .f32⟩
  | .hbm, ⟨15, _⟩ => ⟨S10000x200, .f32⟩
  | .hbm, ⟨16, _⟩ => ⟨S10000x80, .f32⟩
  | .hbm, ⟨17, _⟩ => ⟨S10000x80, .f32⟩
  | .hbm, ⟨18, _⟩ => ⟨S1x80, .f32⟩
  | .hbm, ⟨19, _⟩ => ⟨S10000x80, .f32⟩
  | .hbm, ⟨20, _⟩ => ⟨S10000x80, .f32⟩
  | .hbm, ⟨21, _⟩ => ⟨S_, .f32⟩
  | .hbm, ⟨22, _⟩ => ⟨S10000x80, .f32⟩
  | .hbm, ⟨23, _⟩ => ⟨S10000x80, .f32⟩
  | .hbm, ⟨24, _⟩ => ⟨S10000x7, .f32⟩
  | .hbm, ⟨25, _⟩ => ⟨S1x7, .f32⟩
  | .hbm, ⟨26, _⟩ => ⟨S10000x7, .f32⟩
  | .hbm, ⟨27, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S1x200_S10000x200_0_1 : S1x200.BroadcastsInDim S10000x200 (![0, 1] : Fin 2 → Fin S10000x200.rank)
  bcast_S_S10000x200 : S_.BroadcastsInDim S10000x200 (![] : Fin 0 → Fin S10000x200.rank)
  bcast_S80_S1x80_1 : S80.BroadcastsInDim S1x80 (![1] : Fin 1 → Fin S1x80.rank)
  bcast_S1x80_S10000x80_0_1 : S1x80.BroadcastsInDim S10000x80 (![0, 1] : Fin 2 → Fin S10000x80.rank)
  bcast_S_S10000x80 : S_.BroadcastsInDim S10000x80 (![] : Fin 0 → Fin S10000x80.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x1433_S1433x200_S10000x200_1_0_0_1_n_n_wf : DotDims.WF S10000x1433 S1433x200 S10000x200 [1] [0] [0] [1] [] []
  dot_S10000x10000_S10000x200_S10000x200_1_0_0_1_n_n_wf : DotDims.WF S10000x10000 S10000x200 S10000x200 [1] [0] [0] [1] [] []
  dot_S10000x200_S200x80_S10000x80_1_0_0_1_n_n_wf : DotDims.WF S10000x200 S200x80 S10000x80 [1] [0] [0] [1] [] []
  dot_S10000x10000_S10000x80_S10000x80_1_0_0_1_n_n_wf : DotDims.WF S10000x10000 S10000x80 S10000x80 [1] [0] [0] [1] [] []
  dot_S10000x80_S80x7_S10000x7_1_0_0_1_n_n_wf : DotDims.WF S10000x80 S80x7 S10000x7 [1] [0] [0] [1] [] []

variable [Facts₀]

def dot_S10000x1433_S1433x200_S10000x200_1_0_0_1_n_n : DotDims S10000x1433 S1433x200 S10000x200 where
  lhsContracting := [1]
  rhsContracting := [0]
  lhsNonContracting := [0]
  rhsNonContracting := [1]
  lhsBatch := []
  rhsBatch := []
  wf := dot_S10000x1433_S1433x200_S10000x200_1_0_0_1_n_n_wf
def dot_S10000x10000_S10000x200_S10000x200_1_0_0_1_n_n : DotDims S10000x10000 S10000x200 S10000x200 where
  lhsContracting := [1]
  rhsContracting := [0]
  lhsNonContracting := [0]
  rhsNonContracting := [1]
  lhsBatch := []
  rhsBatch := []
  wf := dot_S10000x10000_S10000x200_S10000x200_1_0_0_1_n_n_wf
def dot_S10000x200_S200x80_S10000x80_1_0_0_1_n_n : DotDims S10000x200 S200x80 S10000x80 where
  lhsContracting := [1]
  rhsContracting := [0]
  lhsNonContracting := [0]
  rhsNonContracting := [1]
  lhsBatch := []
  rhsBatch := []
  wf := dot_S10000x200_S200x80_S10000x80_1_0_0_1_n_n_wf
def dot_S10000x10000_S10000x80_S10000x80_1_0_0_1_n_n : DotDims S10000x10000 S10000x80 S10000x80 where
  lhsContracting := [1]
  rhsContracting := [0]
  lhsNonContracting := [0]
  rhsNonContracting := [1]
  lhsBatch := []
  rhsBatch := []
  wf := dot_S10000x10000_S10000x80_S10000x80_1_0_0_1_n_n_wf
def dot_S10000x80_S80x7_S10000x7_1_0_0_1_n_n : DotDims S10000x80 S80x7 S10000x7 where
  lhsContracting := [1]
  rhsContracting := [0]
  lhsNonContracting := [0]
  rhsNonContracting := [1]
  lhsBatch := []
  rhsBatch := []
  wf := dot_S10000x80_S80x7_S10000x7_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDense.lean ====
/-
  A dense layer read as one whole-array function (a general lemma: nothing here depends on a program).

  For x : [A, K], w : [K, C] and b : [C] the affine map is (x·w + b)[a, c] = Σ_{k<K} x[a, k]·w[k, c] + b[c], and its
  rectified form is max(·, 0).  Two spellings compute them at the ideal values.  The matrix unit's: both operands narrowed
  to bf16 (the identity on the extended reals), the product into a zero accumulator, the bias as one row broadcast down the
  rows, the rectifier against a scalar splat.  The host's: dot_general, the bias through two broadcast_in_dim, the
  rectifier against a broadcast scalar constant.  Both are the same function of (x, w, b), entry by entry; the zero the
  rectifier compares with is kept as the word's ideal value on both sides and never evaluated.
-/
import Idealize.ShloMosaic.Lib.ValueIdx
import Idealize.ShloMosaic.Lib.Pipeline.Value
import Idealize.ShloMosaic.PureOps.Ideal.Laws
import proofs.«123195_g32882269618962_cont_8to1_b_1715_4_alg».proof.Proof.LibMatmul
import proofs.«123195_g32882269618962_cont_8to1_b_1715_4_alg».proof.Proof.LibLayout

noncomputable section

namespace Cert.Lib.Dense

open Idealize.ShloMosaic Idealize.ShloMosaic.ValueIdx

variable {A K C : Nat}

/-- (x·w + b) at every entry: row a of x against column c of w, plus the bias of column c. -/
def affine (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => (∑ k : Fin K, x (ix2 (i 0 : Fin A) k) * w (ix2 k (i 1 : Fin C))) + b (ix1 (i 1 : Fin C))

/-- max(x·w + b, 0) at every entry, the zero being the ideal value of the all-zero f32 word. -/
def rectified (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => max (affine x w b i) (Ideal.ofBits .f32 0x00000000#32)

theorem affine_apply (x : (⟨2, ![A, K]⟩ : Shape).Idx → EReal) (w : (⟨2, ![K, C]⟩ : Shape).Idx → EReal)
    (b : (⟨1, ![C]⟩ : Shape).Idx → EReal) (a : Fin A) (c : Fin C) :
    affine x w b (ix2 a c) = (∑ k : Fin K, x (ix2 a k) * w (ix2 k c)) + b (ix1 c) := rfl

theorem rectified_apply (x : (⟨2, ![A, K]⟩ : Shape).Idx → EReal) (w : (⟨2, ![K, C]⟩ : Shape).Idx → EReal)
    (b : (⟨1, ![C]⟩ : Shape).Idx → EReal) (a : Fin A) (c : Fin C) :
    rectified x w b (ix2 a c)
      = max ((∑ k : Fin K, x (ix2 a k) * w (ix2 k c)) + b (ix1 c)) (Ideal.ofBits .f32 0x00000000#32) := rfl

/-! ## The matrix unit's spelling -/

/-- Narrowed operands into a zero accumulator, plus the bias row broadcast down: the affine map. -/
theorem mxu_affine (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 (shapeCast ⟨2, ![K, C]⟩ w hw) hlt) (constant ⟨2, ![A, C]⟩ .f32 0x00000000#32))
      (broadcastTo ⟨2, ![A, C]⟩ (shapeCast ⟨2, ![1, C]⟩ b h1) h2)
    = affine x w b := by
  funext i
  obtain ⟨a, c, rfl⟩ : ∃ (a : Fin A) (c : Fin C), i = ix2 a c := ⟨i 0, i 1, eq_ix2 i⟩
  rw [addf_apply, affine_apply]
  show FloatOps.matmul (DotDims.plain A K C) prec _ _ (constant ⟨2, ![A, C]⟩ .f32 0x00000000#32) (ix2 a c) + _ = _
  rw [Cert.Lib.Matmul.matmul_zero_apply, Cert.Lib.Layout.bcastRow_apply]
  simp only [truncf_apply, shapeCast_self]

/-- The same against a scalar splat of zero: the rectified map. -/
theorem mxu_rectified (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    maximumf (addf (matmul (DotDims.plain A K C) prec (truncf .bf16 (shapeCast ⟨2, ![A, K]⟩ x hx) hlt)
          (truncf .bf16 (shapeCast ⟨2, ![K, C]⟩ w hw) hlt) (constant ⟨2, ![A, C]⟩ .f32 0x00000000#32))
        (broadcastTo ⟨2, ![A, C]⟩ (shapeCast ⟨2, ![1, C]⟩ b h1) h2))
      (broadcast ⟨2, ![A, C]⟩ (Scalar.ofBits (F := Ideal) .f32 0x00000000#32))
    = rectified x w b := by
  funext i
  rw [maximumf_apply, mxu_affine]
  rfl

/-! ## The host's spelling -/

/-- A vector of C entries broadcast to one row and then down A rows, at (a, c), is the vector at c. -/
theorem hostBias_apply (b : (⟨1, ![C]⟩ : Shape).Idx → EReal)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2)) (a : Fin A) (c : Fin C) :
    broadcastInDim ⟨2, ![A, C]⟩ (![0, 1] : Fin 2 → Fin 2) hb2
        (broadcastInDim ⟨2, ![1, C]⟩ (![1] : Fin 1 → Fin 2) hb1 b) (ix2 a c) = b (ix1 c) := by
  refine (broadcastInDim_apply (![0, 1] : Fin 2 → Fin 2) hb2 _ (ix2 a c) (ix2 (0 : Fin 1) c) ?_).trans
    (broadcastInDim_apply (![1] : Fin 1 → Fin 2) hb1 b (ix2 (0 : Fin 1) c) (ix1 c) ?_)
  · intro d
    match d with
    | ⟨0, _⟩ => simp
    | ⟨1, _⟩ =>
      show c.val = if C = 1 then 0 else c.val
      split
      · have := c.isLt; omega
      · rfl
  · intro d
    match d with
    | ⟨0, _⟩ =>
      show c.val = if C = 1 then 0 else c.val
      split
      · have := c.isLt; omega
      · rfl

/-- dot_general plus the bias through two broadcast_in_dim: the affine map. -/
theorem host_affine (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (prec : Option ContractPrecision) :
    addf (Host.dotGeneral (DotDims.plain A K C) prec x w)
      (broadcastInDim ⟨2, ![A, C]⟩ (![0, 1] : Fin 2 → Fin 2) hb2
        (broadcastInDim ⟨2, ![1, C]⟩ (![1] : Fin 1 → Fin 2) hb1 b))
    = affine x w b := by
  funext i
  obtain ⟨a, c, rfl⟩ : ∃ (a : Fin A) (c : Fin C), i = ix2 a c := ⟨i 0, i 1, eq_ix2 i⟩
  rw [addf_apply, affine_apply, hostBias_apply]
  show FloatOps.dotGeneral (DotDims.plain A K C) prec .single x w (ix2 a c) + _ = _
  rw [Cert.Lib.Matmul.dotGeneral_apply]

/-- The same against a broadcast scalar constant zero: the rectified map. -/
theorem host_rectified (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (h0 : (⟨0, ![]⟩ : Shape).BroadcastsInDim ⟨2, ![A, C]⟩ (![] : Fin 0 → Fin 2))
    (prec : Option ContractPrecision) :
    maximumf (addf (Host.dotGeneral (DotDims.plain A K C) prec x w)
        (broadcastInDim ⟨2, ![A, C]⟩ (![0, 1] : Fin 2 → Fin 2) hb2
          (broadcastInDim ⟨2, ![1, C]⟩ (![1] : Fin 1 → Fin 2) hb1 b)))
      (broadcastInDim ⟨2, ![A, C]⟩ (![] : Fin 0 → Fin 2) h0 (constant (F := Ideal) ⟨0, ![]⟩ .f32 0x00000000#32))
    = rectified x w b := by
  funext i
  rw [maximumf_apply, host_affine,
    broadcastInDim_apply (![] : Fin 0 → Fin 2) h0 _ i ix0 (fun d => d.elim0)]
  rfl

end Cert.Lib.Dense

end
-- ==== Proof.GcnMath.lean ====
/-
  A two-layer graph convolution with a linear classifier on top, as whole-array functions on the extended reals, and the
  one law that joins its zero-padded form to its plain form.

  For node features x [N, F], a dense adjacency matrix adj [N, N], weights W1 [F, H1], W2 [H1, H2], Wfc [H2, C] and biases
  b1, b2, bfc, the plain form is
      logits = (relu(adj · (relu(adj · (x · W1) + b1) · W2) + b2)) · Wfc + bfc.
  The padded form computes the same three stages with every feature axis widened by zero columns (and the next weight
  matrix by zero rows): the widened columns of a stage may hold anything after the rectifier, because the next stage
  multiplies them by the zero rows of its weight matrix, and a product with zero is zero on the extended reals whatever the
  other factor is; so the narrow columns of every padded stage are the plain stage, and no finiteness is needed.
-/
import Idealize.ShloMosaic.Lib.ValueIdx
import Idealize.ShloMosaic.PureOps.Ideal.Laws
import proofs.«123195_g32882269618962_cont_8to1_b_1715_4_alg».proof.Proof.LibDense

noncomputable section

namespace Cert.Gcn

open Idealize.ShloMosaic Idealize.ShloMosaic.ValueIdx Cert.Lib.Dense

/-- A matrix of extended reals, indexed as the printed rank-2 shapes are. -/
abbrev Mat (A B : Nat) : Type := (⟨2, ![A, B]⟩ : Shape).Idx → EReal
/-- A vector of extended reals. -/
abbrev Vc (B : Nat) : Type := (⟨1, ![B]⟩ : Shape).Idx → EReal

variable {A K C : Nat}

/-- The plain product: entry (a, c) is the sum over k of x[a, k] · w[k, c]. -/
def prod (x : Mat A K) (w : Mat K C) : Mat A C :=
  fun i => ∑ k : Fin K, x (ix2 (i 0 : Fin A) k) * w (ix2 k (i 1 : Fin C))

/-- The product plus a bias held as a one-row matrix: entry (a, c) is the sum over k of x[a, k] · w[k, c], plus b[0, c]. -/
def affineRow (x : Mat A K) (w : Mat K C) (b : Mat 1 C) : Mat A C :=
  fun i => (∑ k : Fin K, x (ix2 (i 0 : Fin A) k) * w (ix2 k (i 1 : Fin C))) + b (ix2 (0 : Fin 1) (i 1 : Fin C))

/-- The rectified form of `affineRow`, against the ideal value of the all-zero f32 word. -/
def rectRow (x : Mat A K) (w : Mat K C) (b : Mat 1 C) : Mat A C :=
  fun i => max (affineRow x w b i) (Ideal.ofBits .f32 0x00000000#32)

theorem prod_apply (x : Mat A K) (w : Mat K C) (a : Fin A) (c : Fin C) :
    prod x w (ix2 a c) = ∑ k : Fin K, x (ix2 a k) * w (ix2 k c) := rfl

theorem affineRow_apply (x : Mat A K) (w : Mat K C) (b : Mat 1 C) (a : Fin A) (c : Fin C) :
    affineRow x w b (ix2 a c) = (∑ k : Fin K, x (ix2 a k) * w (ix2 k c)) + b (ix2 (0 : Fin 1) c) := rfl

theorem rectRow_apply (x : Mat A K) (w : Mat K C) (b : Mat 1 C) (a : Fin A) (c : Fin C) :
    rectRow x w b (ix2 a c)
      = max ((∑ k : Fin K, x (ix2 a k) * w (ix2 k c)) + b (ix2 (0 : Fin 1) c)) (Ideal.ofBits .f32 0x00000000#32) := rfl

/-- The plain network: two rectified graph-convolution layers and the classifier. -/
def logits {N F H1 H2 Cn : Nat} (x : Mat N F) (adj : Mat N N) (W1 : Mat F H1) (b1 : Vc H1) (W2 : Mat H1 H2) (b2 : Vc H2)
    (Wfc : Mat H2 Cn) (bfc : Vc Cn) : Mat N Cn :=
  affine (rectified adj (prod (rectified adj (prod x W1) b1) W2) b2) Wfc bfc

/-- The padded network, stage by stage: the first product, the first layer fused with the second product, the second
    layer fused with the classifier. -/
def stage1 {N F H1p : Nat} (x : Mat N F) (W1p : Mat F H1p) : Mat N H1p := prod x W1p
def stage2 {N H1p H2p : Nat} (adj : Mat N N) (S1 : Mat N H1p) (b1p : Mat 1 H1p) (W2p : Mat H1p H2p) : Mat N H2p :=
  prod (rectRow adj S1 b1p) W2p
def stage3 {N H2p Cp : Nat} (adj : Mat N N) (S2 : Mat N H2p) (b2p : Mat 1 H2p) (Wfcp : Mat H2p Cp) (bfcp : Mat 1 Cp) :
    Mat N Cp :=
  affineRow (rectRow adj S2 b2p) Wfcp bfcp

/-! ## The padded network is the plain one on the narrow columns -/

/-- A sum over a widened range whose extra terms vanish is the sum over the narrow range. -/
theorem sum_castLE {n p : Nat} (h : n ≤ p) (f : Fin p → EReal) (hz : ∀ j : Fin p, n ≤ j.val → f j = 0) :
    ∑ j : Fin p, f j = ∑ j : Fin n, f (Fin.castLE h j) := by
  obtain ⟨d, rfl⟩ := Nat.exists_eq_add_of_le h
  rw [Fin.sum_univ_add]
  have hz' : ∑ i : Fin d, f (Fin.natAdd n i) = 0 :=
    Finset.sum_eq_zero fun i _ => hz _ (by simp)
  rw [hz', add_zero]
  rfl

section Padded

variable {N F H1 H1p H2 H2p Cn Cp : Nat}
variable (h1 : H1 ≤ H1p) (h2 : H2 ≤ H2p) (h3 : Cn ≤ Cp)
variable (x : Mat N F) (adj : Mat N N) (W1 : Mat F H1) (b1 : Vc H1) (W2 : Mat H1 H2) (b2 : Vc H2) (Wfc : Mat H2 Cn) (bfc : Vc Cn)
variable (W1p : Mat F H1p) (b1p : Mat 1 H1p) (W2p : Mat H1p H2p) (b2p : Mat 1 H2p) (Wfcp : Mat H2p Cp) (bfcp : Mat 1 Cp)

/-- A rectified layer whose right factor and bias agree with the plain ones on the narrow columns agrees with the plain
    layer there (the contraction axis is not widened). -/
theorem rectRow_narrow {A K Cw Cq : Nat} (h : Cw ≤ Cq) (a : Mat A K) (s : Mat K Cw) (sp : Mat K Cq) (b : Vc Cw) (bp : Mat 1 Cq)
    (hs : ∀ (k : Fin K) (j : Fin Cw), sp (ix2 k (Fin.castLE h j)) = s (ix2 k j))
    (hb : ∀ j : Fin Cw, bp (ix2 0 (Fin.castLE h j)) = b (ix1 j)) (r : Fin A) (j : Fin Cw) :
    rectRow a sp bp (ix2 r (Fin.castLE h j)) = rectified a s b (ix2 r j) := by
  rw [rectRow_apply, rectified_apply, hb]
  simp only [hs]

/-- A product whose left factor agrees with a plain one on the narrow columns, and whose right factor is the plain one
    widened by zero rows, is the plain product on the narrow columns. -/
theorem prod_narrow {A K Kp Cw Cq : Nat} (hk : K ≤ Kp) (hc : Cw ≤ Cq) (l : Mat A K) (lp : Mat A Kp) (w : Mat K Cw) (wp : Mat Kp Cq)
    (hl : ∀ (r : Fin A) (k : Fin K), lp (ix2 r (Fin.castLE hk k)) = l (ix2 r k))
    (hw : ∀ (k : Fin K) (j : Fin Cw), wp (ix2 (Fin.castLE hk k) (Fin.castLE hc j)) = w (ix2 k j))
    (hwz : ∀ (k : Fin Kp) (j : Fin Cq), K ≤ k.val → wp (ix2 k j) = 0) (r : Fin A) (j : Fin Cw) :
    (∑ k : Fin Kp, lp (ix2 r k) * wp (ix2 k (Fin.castLE hc j))) = ∑ k : Fin K, l (ix2 r k) * w (ix2 k j) := by
  rw [sum_castLE hk (fun k => lp (ix2 r k) * wp (ix2 k (Fin.castLE hc j)))
    (fun k hkk => by rw [hwz k _ hkk, mul_zero])]
  simp only [hl, hw]

include h1 h2 h3 in
/-- On the narrow columns the padded network is the plain one. -/
theorem padded_eq
    (hW1 : ∀ (k : Fin F) (j : Fin H1), W1p (ix2 k (Fin.castLE h1 j)) = W1 (ix2 k j))
    (hb1 : ∀ j : Fin H1, b1p (ix2 0 (Fin.castLE h1 j)) = b1 (ix1 j))
    (hW2 : ∀ (j : Fin H1) (l : Fin H2), W2p (ix2 (Fin.castLE h1 j) (Fin.castLE h2 l)) = W2 (ix2 j l))
    (hW2z : ∀ (j : Fin H1p) (l : Fin H2p), H1 ≤ j.val → W2p (ix2 j l) = 0)
    (hb2 : ∀ l : Fin H2, b2p (ix2 0 (Fin.castLE h2 l)) = b2 (ix1 l))
    (hWfc : ∀ (l : Fin H2) (c : Fin Cn), Wfcp (ix2 (Fin.castLE h2 l) (Fin.castLE h3 c)) = Wfc (ix2 l c))
    (hWfcz : ∀ (l : Fin H2p) (c : Fin Cp), H2 ≤ l.val → Wfcp (ix2 l c) = 0)
    (hbfc : ∀ c : Fin Cn, bfcp (ix2 0 (Fin.castLE h3 c)) = bfc (ix1 c))
    (n : Fin N) (c : Fin Cn) :
    stage3 adj (stage2 adj (stage1 x W1p) b1p W2p) b2p Wfcp bfcp (ix2 n (Fin.castLE h3 c))
      = logits x adj W1 b1 W2 b2 Wfc bfc (ix2 n c) := by
  -- the first product, narrow columns
  have s1 : ∀ (r : Fin N) (j : Fin H1), stage1 x W1p (ix2 r (Fin.castLE h1 j)) = prod x W1 (ix2 r j) := fun r j => by
    unfold stage1; rw [prod_apply, prod_apply]; simp only [hW1]
  -- the first rectified layer, narrow columns
  have r1 : ∀ (r : Fin N) (j : Fin H1),
      rectRow adj (stage1 x W1p) b1p (ix2 r (Fin.castLE h1 j)) = rectified adj (prod x W1) b1 (ix2 r j) :=
    rectRow_narrow h1 adj (prod x W1) (stage1 x W1p) b1 b1p s1 hb1
  -- the second product, narrow columns
  have s2 : ∀ (r : Fin N) (l : Fin H2), stage2 adj (stage1 x W1p) b1p W2p (ix2 r (Fin.castLE h2 l))
      = prod (rectified adj (prod x W1) b1) W2 (ix2 r l) := fun r l => by
    unfold stage2; rw [prod_apply, prod_apply]
    exact prod_narrow h1 h2 _ _ W2 W2p r1 hW2 hW2z r l
  -- the second rectified layer, narrow columns
  have r2 : ∀ (r : Fin N) (l : Fin H2),
      rectRow adj (stage2 adj (stage1 x W1p) b1p W2p) b2p (ix2 r (Fin.castLE h2 l))
        = rectified adj (prod (rectified adj (prod x W1) b1) W2) b2 (ix2 r l) :=
    rectRow_narrow h2 adj _ _ b2 b2p s2 hb2
  unfold stage3 logits
  rw [affineRow_apply, affine_apply, hbfc]
  rw [prod_narrow h2 h3 _ _ Wfc Wfcp r2 hWfc hWfcz n c]

end Padded

/-! ## A block of rows of a stage is the stage of the block of rows -/

section Rows

variable {N B Hp Hq : Nat}

/-- The fused layer-and-product on a block of rows of the adjacency matrix is those rows of the whole stage. -/
theorem stage2_rows (adj : Mat N N) (S : Mat N Hp) (b : Mat 1 Hp) (W : Mat Hp Hq) (ablk : Mat B N) (row : Fin B → Fin N)
    (hrow : ∀ (r : Fin B) (k : Fin N), ablk (ix2 r k) = adj (ix2 (row r) k)) (r : Fin B) (l : Fin Hq) :
    prod (rectRow ablk S b) W (ix2 r l) = stage2 adj S b W (ix2 (row r) l) := by
  unfold stage2
  rw [prod_apply, prod_apply]
  simp only [rectRow_apply, hrow]

/-- The fused layer-and-classifier on a block of rows of the adjacency matrix is those rows of the whole stage. -/
theorem stage3_rows (adj : Mat N N) (S : Mat N Hp) (b : Mat 1 Hp) (W : Mat Hp Hq) (bo : Mat 1 Hq) (ablk : Mat B N)
    (row : Fin B → Fin N) (hrow : ∀ (r : Fin B) (k : Fin N), ablk (ix2 r k) = adj (ix2 (row r) k)) (r : Fin B) (l : Fin Hq) :
    affineRow (rectRow ablk S b) W bo (ix2 r l) = stage3 adj S b W bo (ix2 (row r) l) := by
  unfold stage3
  rw [affineRow_apply, affineRow_apply]
  simp only [rectRow_apply, hrow]

/-- The plain product on a block of rows of its left factor is those rows of the whole product. -/
theorem stage1_rows {Fk : Nat} (x : Mat N Fk) (W : Mat Fk Hq) (xblk : Mat B Fk) (row : Fin B → Fin N)
    (hrow : ∀ (r : Fin B) (k : Fin Fk), xblk (ix2 r k) = x (ix2 (row r) k)) (r : Fin B) (l : Fin Hq) :
    prod xblk W (ix2 r l) = stage1 x W (ix2 (row r) l) := by
  unfold stage1
  rw [prod_apply, prod_apply]
  simp only [hrow]

end Rows

end Cert.Gcn

end
-- ==== Proof.HostReads.lean ====
/-
  What the buffers hold where each of the three kernel regions begins, and at the return.

  Between the regions the host only prepares operands: it writes the integer zero, converts it to the pad value, widens
  a weight matrix or a bias row by zero rows and columns, turns a bias vector into a one-row matrix, and at the end keeps
  the first 7 columns of the last region's output. Each buffer is written once, and a region changes none but its own
  output array; so every operand of a region is read back as a closed expression in the launch memory (a padded
  argument) or as the output array the region before it left, and the arguments themselves are the launch memory
  throughout.
-/
import proofs.«123195_g32882269618962_cont_8to1_b_1715_4_alg».proof.Proof.Gen.KernelIdeal.Frame
import proofs.«123195_g32882269618962_cont_8to1_b_1715_4_alg».proof.Proof.GcnMath
import Idealize.ShloMosaic.Lib.KernelVsHost

set_option maxRecDepth 16384

noncomputable section

namespace Cert.KernelIdeal.HostReads

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- the pad value of every host pad: the integer zero converted -/
abbrev zpad : S_.Idx → EReal := sitofp (F := Ideal) .f32 (constantI S_ 32 0#32)

/-! ## The arguments' buffers

No host operation writes an argument's buffer, and a kernel region leaves every buffer that is none of its arrays as it
found it (an input window's array it leaves as entered as well); so an argument's buffer holds the launch memory at
every boundary of the fold. -/

private theorem W2_arg1 (c : Dev nD) : W2 m ρ c (Proc.devRef .tc main_arg1) = m ((c : Thread nD τ).loc main_arg1) := by
  show StableHlo.after hostOps0_1 (W1 m ρ c) (Proc.devRef .tc main_arg1) = _
  after_results
private theorem W3_arg1 (c : Dev nD) : W3 m ρ c (Proc.devRef .tc main_arg1) = m ((c : Thread nD τ).loc main_arg1) :=
  (W3_of_ne m ρ c main_arg1 (by decide)).trans (W2_arg1 m ρ c)

private theorem W2_arg3 (c : Dev nD) : W2 m ρ c (Proc.devRef .tc main_arg3) = m ((c : Thread nD τ).loc main_arg3) := by
  show StableHlo.after hostOps0_1 (W1 m ρ c) (Proc.devRef .tc main_arg3) = _
  after_results
private theorem W3_arg3 (c : Dev nD) : W3 m ρ c (Proc.devRef .tc main_arg3) = m ((c : Thread nD τ).loc main_arg3) :=
  (W3_of_ne m ρ c main_arg3 (by decide)).trans (W2_arg3 m ρ c)

private theorem W2_arg4 (c : Dev nD) : W2 m ρ c (Proc.devRef .tc main_arg4) = m ((c : Thread nD τ).loc main_arg4) := by
  show StableHlo.after hostOps0_1 (W1 m ρ c) (Proc.devRef .tc main_arg4) = _
  after_results
private theorem W3_arg4 (c : Dev nD) : W3 m ρ c (Proc.devRef .tc main_arg4) = m ((c : Thread nD τ).loc main_arg4) :=
  (W3_of_ne m ρ c main_arg4 (by decide)).trans (W2_arg4 m ρ c)

private theorem W2_arg5 (c : Dev nD) : W2 m ρ c (Proc.devRef .tc main_arg5) = m ((c : Thread nD τ).loc main_arg5) := by
  show StableHlo.after hostOps0_1 (W1 m ρ c) (Proc.devRef .tc main_arg5) = _
  after_results
private theorem W3_arg5 (c : Dev nD) : W3 m ρ c (Proc.devRef .tc main_arg5) = m ((c : Thread nD τ).loc main_arg5) :=
  (W3_of_ne m ρ c main_arg5 (by decide)).trans (W2_arg5 m ρ c)

private theorem W2_arg6 (c : Dev nD) : W2 m ρ c (Proc.devRef .tc main_arg6) = m ((c : Thread nD τ).loc main_arg6) := by
  show StableHlo.after hostOps0_1 (W1 m ρ c) (Proc.devRef .tc main_arg6) = _
  after_results
private theorem W3_arg6 (c : Dev nD) : W3 m ρ c (Proc.devRef .tc main_arg6) = m ((c : Thread nD τ).loc main_arg6) :=
  (W3_of_ne m ρ c main_arg6 (by decide)).trans (W2_arg6 m ρ c)

private theorem W2_arg7 (c : Dev nD) : W2 m ρ c (Proc.devRef .tc main_arg7) = m ((c : Thread nD τ).loc main_arg7) := by
  show StableHlo.after hostOps0_1 (W1 m ρ c) (Proc.devRef .tc main_arg7) = _
  after_results
private theorem W3_arg7 (c : Dev nD) : W3 m ρ c (Proc.devRef .tc main_arg7) = m ((c : Thread nD τ).loc main_arg7) :=
  (W3_of_ne m ρ c main_arg7 (by decide)).trans (W2_arg7 m ρ c)

private theorem W8_arg1 (c : Dev nD) : W8 m ρ c (Proc.devRef .tc main_arg1) = m ((c : Thread nD τ).loc main_arg1) := by
  show StableHlo.after hostOps1_4 (W7 m ρ c) (Proc.devRef .tc main_arg1) = _
  after_results
  exact W3_arg1 m ρ c

private theorem W8_arg5 (c : Dev nD) : W8 m ρ c (Proc.devRef .tc main_arg5) = m ((c : Thread nD τ).loc main_arg5) := by
  show StableHlo.after hostOps1_4 (W7 m ρ c) (Proc.devRef .tc main_arg5) = _
  after_results
  exact W3_arg5 m ρ c

private theorem W8_arg6 (c : Dev nD) : W8 m ρ c (Proc.devRef .tc main_arg6) = m ((c : Thread nD τ).loc main_arg6) := by
  show StableHlo.after hostOps1_4 (W7 m ρ c) (Proc.devRef .tc main_arg6) = _
  after_results
  exact W3_arg6 m ρ c

private theorem W8_arg7 (c : Dev nD) : W8 m ρ c (Proc.devRef .tc main_arg7) = m ((c : Thread nD τ).loc main_arg7) := by
  show StableHlo.after hostOps1_4 (W7 m ρ c) (Proc.devRef .tc main_arg7) = _
  after_results
  exact W3_arg7 m ρ c

private theorem W9_arg5 (c : Dev nD) : W9 m ρ c (Proc.devRef .tc main_arg5) = m ((c : Thread nD τ).loc main_arg5) :=
  (W9_of_ne m ρ c main_arg5 (by decide)).trans (W8_arg5 m ρ c)

private theorem W9_arg6 (c : Dev nD) : W9 m ρ c (Proc.devRef .tc main_arg6) = m ((c : Thread nD τ).loc main_arg6) :=
  (W9_of_ne m ρ c main_arg6 (by decide)).trans (W8_arg6 m ρ c)

private theorem W9_arg7 (c : Dev nD) : W9 m ρ c (Proc.devRef .tc main_arg7) = m ((c : Thread nD τ).loc main_arg7) :=
  (W9_of_ne m ρ c main_arg7 (by decide)).trans (W8_arg7 m ρ c)

/-- The adjacency matrix is the first input window of the second region: the region leaves it as entered. -/
private theorem W9_arg1 (c : Dev nD) : W9 m ρ c (Proc.devRef .tc main_arg1) = m ((c : Thread nD τ).loc main_arg1) :=
  ((W9_arr m ρ c 0).trans (((dat1 (V8 m ρ) c).arrAt_in 0 rfl _).trans (A_eq1 (V8 m ρ) c 0))).trans (W8_arg1 m ρ c)

/-! ## The first region's entry -/

theorem V2_arg0 (c : Dev nD) : V2 m ρ c main_arg0 = m ((c : Thread nD τ).loc main_arg0) := by
  show StableHlo.after hostOps0_1 (W1 m ρ c) (Proc.devRef .tc main_arg0) = _
  after_results

/-- The first weight matrix widened by 56 zero columns: the pad value is the integer zero written one stretch earlier,
    converted. -/
theorem V2_v0 (c : Dev nD) : V2 m ρ c main_v0
    = pad S1433x256 ![0, 0] ![0, 56] ![0, 0] (m ((c : Thread nD τ).loc main_arg2)) zpad pads_S1433x200_S1433x256_000_0560 h_S_ := by
  show StableHlo.after hostOps0_1 (W1 m ρ c) (Proc.devRef .tc main_v0) = _
  after_results
  rfl

/-! ## The second region's entry -/

theorem V8_arg1 (c : Dev nD) : V8 m ρ c main_arg1 = m ((c : Thread nD τ).loc main_arg1) := W8_arg1 m ρ c

/-- The first region's output array, as the region left it. -/
theorem V8_v1 (c : Dev nD) : V8 m ρ c main_v1 = (dat0 (V2 m ρ) c).arrAt 2 cfg0.N := by
  show StableHlo.after hostOps1_4 (W7 m ρ c) (Proc.devRef .tc main_v1) = _
  after_results
  exact W3_arr m ρ c 2

/-- The first bias as a one-row matrix, widened by 56 zero columns. -/
theorem V8_v3 (c : Dev nD) : V8 m ρ c main_v3
    = pad S1x256 ![0, 0] ![0, 56] ![0, 0] (broadcastInDim S1x200 ![1] bcast_S200_S1x200_1 (m ((c : Thread nD τ).loc main_arg3))) zpad pads_S1x200_S1x256_000_0560 h_S_ := by
  show StableHlo.after hostOps1_4 (W7 m ρ c) (Proc.devRef .tc main_v3) = _
  after_results
  rw [W3_arg3 m ρ c]
  rfl

/-- The second weight matrix widened by 56 zero rows and 48 zero columns. -/
theorem V8_v4 (c : Dev nD) : V8 m ρ c main_v4
    = pad S256x128 ![0, 0] ![56, 48] ![0, 0] (m ((c : Thread nD τ).loc main_arg4)) zpad pads_S200x80_S256x128_0560_0480 h_S_ := by
  show StableHlo.after hostOps1_4 (W7 m ρ c) (Proc.devRef .tc main_v4) = _
  after_results
  rw [W3_arg4 m ρ c]
  rfl

/-- The zero row that the second region takes as its fifth operand: the f32 zero word, broadcast. -/
theorem V8_v5 (c : Dev nD) : V8 m ρ c main_v5
    = broadcastInDim S1x128 ![] bcast_S_S1x128 (constant (F := Ideal) S_ .f32 0x00000000#32) := by
  show StableHlo.after hostOps1_4 (W7 m ρ c) (Proc.devRef .tc main_v5) = _
  after_results

/-! ## The third region's entry -/

theorem V15_arg1 (c : Dev nD) : V15 m ρ c main_arg1 = m ((c : Thread nD τ).loc main_arg1) := by
  show StableHlo.after hostOps2_5 (W14 m ρ c) (Proc.devRef .tc main_arg1) = _
  after_results
  exact W9_arg1 m ρ c

/-- The second region's output array, as the region left it. -/
theorem V15_v6 (c : Dev nD) : V15 m ρ c main_v6 = (dat1 (V8 m ρ) c).arrAt 5 cfg1.N := by
  show StableHlo.after hostOps2_5 (W14 m ρ c) (Proc.devRef .tc main_v6) = _
  after_results
  exact W9_arr m ρ c 5

/-- The second bias as a one-row matrix, widened by 48 zero columns. -/
theorem V15_v8 (c : Dev nD) : V15 m ρ c main_v8
    = pad S1x128 ![0, 0] ![0, 48] ![0, 0] (broadcastInDim S1x80 ![1] bcast_S80_S1x80_1 (m ((c : Thread nD τ).loc main_arg5))) zpad pads_S1x80_S1x128_000_0480 h_S_ := by
  show StableHlo.after hostOps2_5 (W14 m ρ c) (Proc.devRef .tc main_v8) = _
  after_results
  rw [W9_arg5 m ρ c]
  rfl

/-- The classifier's weight matrix widened by 48 zero rows and 121 zero columns. -/
theorem V15_v9 (c : Dev nD) : V15 m ρ c main_v9
    = pad S128x128 ![0, 0] ![48, 121] ![0, 0] (m ((c : Thread nD τ).loc main_arg6)) zpad pads_S80x7_S128x128_0480_01210 h_S_ := by
  show StableHlo.after hostOps2_5 (W14 m ρ c) (Proc.devRef .tc main_v9) = _
  after_results
  rw [W9_arg6 m ρ c]
  rfl

/-- The classifier's bias as a one-row matrix, widened by 121 zero columns. -/
theorem V15_v11 (c : Dev nD) : V15 m ρ c main_v11
    = pad S1x128 ![0, 0] ![0, 121] ![0, 0] (broadcastInDim S1x7 ![1] bcast_S7_S1x7_1 (m ((c : Thread nD τ).loc main_arg7))) zpad pads_S1x7_S1x128_000_01210 h_S_ := by
  show StableHlo.after hostOps2_5 (W14 m ρ c) (Proc.devRef .tc main_v11) = _
  after_results
  rw [W9_arg7 m ρ c]
  rfl

/-! ## The return -/

/-- The result is the first 7 columns of the third region's output array, as the region left it. -/
theorem W17_v13 (c : Dev nD) : W17 m ρ c (Proc.devRef .tc main_v13)
    = extractStridedSlice S10000x7 ![0, 0] ((dat2 (V15 m ρ) c).arrAt 5 cfg2.N) slices_S10000x128_S10000x7_0_0 := by
  show StableHlo.after hostOps3 (W16 m ρ c) (Proc.devRef .tc main_v13) = _
  after_results
  rw [W16_arr m ρ c 5]

end Cert.KernelIdeal.HostReads
end
-- ==== Proof.PadReads.lean ====
import proofs.«123195_g32882269618962_cont_8to1_b_1715_4_alg».proof.Proof.Gen.KernelIdeal.Frame
import proofs.«123195_g32882269618962_cont_8to1_b_1715_4_alg».proof.Proof.GcnMath
import Idealize.ShloMosaic.Lib.KernelVsHost

/-!
# Reading the host's zero padding, row broadcast and final slice at an index

The host pads every weight matrix and bias row with zeros on the high side only (no low padding, no interior
padding), so a padded array read inside the operand's extents is the operand there, and read beyond the operand's
row count it is the pad value, the integer zero converted, which is the real zero.  A bias vector is first laid out
as a one-row matrix.  The final slice starts at offset zero, so it reads the same coordinates of the wide array.

Each fact is proved once for arbitrary extents and then instantiated at the sizes of this program.
-/

set_option maxRecDepth 16384

noncomputable section

namespace Cert.KernelIdeal.PadReads

open Idealize.ShloMosaic Idealize.ShloMosaic.TcCoe Idealize.ShloMosaic.ValueIdx
open Cert.KernelIdeal Cert.KernelIdeal.Facts₀ Cert.KernelIdeal.Facts

/-- the pad value of every host pad: the integer zero converted -/
abbrev zpad : S_.Idx → EReal := sitofp (F := Ideal) .f32 (constantI S_ 32 0#32)

/-! ## The generic facts -/

section Generic
variable {α : Type}

/-- A matrix padded on the high side only, read at (a, b) with a and b inside the operand, is the operand at (a, b). -/
theorem pad2_inside {A B Ap Bp : Nat} (hi : Fin 2 → Nat) (x : (⟨2, ![A, B]⟩ : Shape).Idx → α) {u : Shape}
    (v : u.Idx → α) (h : (⟨2, ![A, B]⟩ : Shape).Pads (![0, 0] : Fin 2 → Nat) hi ![0, 0] ⟨2, ![Ap, Bp]⟩)
    (hu : 0 < u.numel) (hA : A ≤ Ap) (hB : B ≤ Bp) (a : Fin A) (b : Fin B) :
    pad ⟨2, ![Ap, Bp]⟩ ![0, 0] hi ![0, 0] x v h hu (ix2 (Fin.castLE hA a) (Fin.castLE hB b)) = x (ix2 a b) := by
  refine pad_apply_of_inside _ _ _ x v h hu _ (ix2 a b) ?_
  intro d
  match d with
  | ⟨0, _⟩ => show a.val = 0 + a.val * (0 + 1); omega
  | ⟨1, _⟩ => show b.val = 0 + b.val * (0 + 1); omega

/-- The same matrix read at a row at or beyond the operand's row count is the pad value. -/
theorem pad2_beyond_rows {A B Ap Bp : Nat} (hi : Fin 2 → Nat) (x : (⟨2, ![A, B]⟩ : Shape).Idx → α) {u : Shape}
    (v : u.Idx → α) (h : (⟨2, ![A, B]⟩ : Shape).Pads (![0, 0] : Fin 2 → Nat) hi ![0, 0] ⟨2, ![Ap, Bp]⟩)
    (hu : 0 < u.numel) (j : Fin Ap) (l : Fin Bp) (hj : A ≤ j.val) :
    pad ⟨2, ![Ap, Bp]⟩ ![0, 0] hi ![0, 0] x v h hu (ix2 j l) = v (Shape.Idx.first hu) := by
  refine pad_apply_of_not_inside _ _ _ x v h hu _ (⟨0, by decide⟩ : Fin 2) ?_
  intro hin
  have e : (j.val - 0) / (0 + 1) < A := hin.2.2
  simp at e
  omega

/-- A vector laid out as one row and then padded on the high side, read at (0, c) with c inside the vector, is the
    vector at c. -/
theorem padRow_inside {C Cp : Nat} (hi : Fin 2 → Nat) (b : (⟨1, ![C]⟩ : Shape).Idx → α)
    (hb : (⟨1, ![C]⟩ : Shape).BroadcastsInDim ⟨2, ![1, C]⟩ (![1] : Fin 1 → Fin 2)) {u : Shape} (v : u.Idx → α)
    (h : (⟨2, ![1, C]⟩ : Shape).Pads (![0, 0] : Fin 2 → Nat) hi ![0, 0] ⟨2, ![1, Cp]⟩) (hu : 0 < u.numel)
    (hC : C ≤ Cp) (c : Fin C) :
    pad ⟨2, ![1, Cp]⟩ ![0, 0] hi ![0, 0] (broadcastInDim ⟨2, ![1, C]⟩ (![1] : Fin 1 → Fin 2) hb b) v h hu
        (ix2 (0 : Fin 1) (Fin.castLE hC c)) = b (ix1 c) := by
  refine (pad_apply_of_inside _ _ _ _ v h hu _ (ix2 (0 : Fin 1) c) ?_).trans
    (broadcastInDim_apply (![1] : Fin 1 → Fin 2) hb b (ix2 (0 : Fin 1) c) (ix1 c) ?_)
  · intro d
    match d with
    | ⟨0, _⟩ => show (0 : Nat) = 0 + 0 * (0 + 1); omega
    | ⟨1, _⟩ => show c.val = 0 + c.val * (0 + 1); omega
  · intro d
    match d with
    | ⟨0, _⟩ =>
      show c.val = if C = 1 then 0 else c.val
      split
      · have := c.isLt; omega
      · rfl

/-- A slice from offset zero that keeps every row and the first B columns reads the wide matrix at the same
    coordinates. -/
theorem slice2_inside {A B Bp : Nat} (x : (⟨2, ![A, Bp]⟩ : Shape).Idx → α)
    (h : (⟨2, ![A, Bp]⟩ : Shape).Slices (![0, 0] : Fin 2 → Nat) ⟨2, ![A, B]⟩) (hB : B ≤ Bp) (n : Fin A) (c : Fin B) :
    extractStridedSlice ⟨2, ![A, B]⟩ ![0, 0] x h (ix2 n c) = x (ix2 n (Fin.castLE hB c)) := by
  refine extractStridedSlice_apply _ x h _ _ ?_
  intro d
  match d with
  | ⟨0, _⟩ => show n.val = 0 + n.val; omega
  | ⟨1, _⟩ => show c.val = 0 + c.val; omega

end Generic

/-- The pad value is the real zero: the integer zero converted. -/
theorem zpad_first : zpad (Shape.Idx.first h_S_) = 0 :=
  sitofp_zero (φ := .f32)

/-! ## The nine readings of this program -/

theorem W1p_narrow (W1 : S1433x200.Idx → EReal) (k : Fin 1433) (j : Fin 200) :
    pad S1433x256 ![0, 0] ![0, 56] ![0, 0] W1 zpad pads_S1433x200_S1433x256_000_0560 h_S_ (ix2 k (Fin.castLE (by decide : 200 ≤ 256) j)) = W1 (ix2 k j) :=
  pad2_inside _ W1 zpad pads_S1433x200_S1433x256_000_0560 h_S_ (Nat.le_refl _) _ k j
theorem b1p_narrow (b1 : S200.Idx → EReal) (j : Fin 200) :
    pad S1x256 ![0, 0] ![0, 56] ![0, 0] (broadcastInDim S1x200 ![1] bcast_S200_S1x200_1 b1) zpad pads_S1x200_S1x256_000_0560 h_S_ (ix2 (0 : Fin 1) (Fin.castLE (by decide : 200 ≤ 256) j)) = b1 (ix1 j) :=
  padRow_inside _ b1 bcast_S200_S1x200_1 zpad pads_S1x200_S1x256_000_0560 h_S_ _ j
theorem W2p_narrow (W2 : S200x80.Idx → EReal) (j : Fin 200) (l : Fin 80) :
    pad S256x128 ![0, 0] ![56, 48] ![0, 0] W2 zpad pads_S200x80_S256x128_0560_0480 h_S_ (ix2 (Fin.castLE (by decide : 200 ≤ 256) j) (Fin.castLE (by decide : 80 ≤ 128) l)) = W2 (ix2 j l) :=
  pad2_inside _ W2 zpad pads_S200x80_S256x128_0560_0480 h_S_ _ _ j l
theorem W2p_zero (W2 : S200x80.Idx → EReal) (j : Fin 256) (l : Fin 128) (hj : 200 ≤ j.val) :
    pad S256x128 ![0, 0] ![56, 48] ![0, 0] W2 zpad pads_S200x80_S256x128_0560_0480 h_S_ (ix2 j l) = 0 :=
  (pad2_beyond_rows _ W2 zpad pads_S200x80_S256x128_0560_0480 h_S_ j l hj).trans zpad_first
theorem b2p_narrow (b2 : S80.Idx → EReal) (l : Fin 80) :
    pad S1x128 ![0, 0] ![0, 48] ![0, 0] (broadcastInDim S1x80 ![1] bcast_S80_S1x80_1 b2) zpad pads_S1x80_S1x128_000_0480 h_S_ (ix2 (0 : Fin 1) (Fin.castLE (by decide : 80 ≤ 128) l)) = b2 (ix1 l) :=
  padRow_inside _ b2 bcast_S80_S1x80_1 zpad pads_S1x80_S1x128_000_0480 h_S_ _ l
theorem Wfcp_narrow (Wfc : S80x7.Idx → EReal) (l : Fin 80) (c : Fin 7) :
    pad S128x128 ![0, 0] ![48, 121] ![0, 0] Wfc zpad pads_S80x7_S128x128_0480_01210 h_S_ (ix2 (Fin.castLE (by decide : 80 ≤ 128) l) (Fin.castLE (by decide : 7 ≤ 128) c)) = Wfc (ix2 l c) :=
  pad2_inside _ Wfc zpad pads_S80x7_S128x128_0480_01210 h_S_ _ _ l c
theorem Wfcp_zero (Wfc : S80x7.Idx → EReal) (l : Fin 128) (c : Fin 128) (hl : 80 ≤ l.val) :
    pad S128x128 ![0, 0] ![48, 121] ![0, 0] Wfc zpad pads_S80x7_S128x128_0480_01210 h_S_ (ix2 l c) = 0 :=
  (pad2_beyond_rows _ Wfc zpad pads_S80x7_S128x128_0480_01210 h_S_ l c hl).trans zpad_first
theorem bfcp_narrow (bfc : S7.Idx → EReal) (c : Fin 7) :
    pad S1x128 ![0, 0] ![0, 121] ![0, 0] (broadcastInDim S1x7 ![1] bcast_S7_S1x7_1 bfc) zpad pads_S1x7_S1x128_000_01210 h_S_ (ix2 (0 : Fin 1) (Fin.castLE (by decide : 7 ≤ 128) c)) = bfc (ix1 c) :=
  padRow_inside _ bfc bcast_S7_S1x7_1 zpad pads_S1x7_S1x128_000_01210 h_S_ _ c
theorem slice_narrow (L : S10000x128.Idx → EReal) (n : Fin 10000) (c : Fin 7) :
    extractStridedSlice S10000x7 ![0, 0] L slices_S10000x128_S10000x7_0_0 (ix2 n c) = L (ix2 n (Fin.castLE (by decide : 7 ≤ 128) c)) :=
  slice2_inside L slices_S10000x128_S10000x7_0_0 _ n c

end Cert.KernelIdeal.PadReads
end
-- ==== Proof.Region0.lean ====
/-
  Region 0: a row-blocked matrix product.

  The grid has 10 points. Point t reads rows 1000·t … 1000·t + 999 of the node features x [10000, 1433], the whole
  weight matrix w [1433, 256], multiplies the two blocks into a zero accumulator and writes the result as rows
  1000·t … 1000·t + 999 of the output [10000, 256]. Entry (r, j) of the block product is the sum over k of
  x[1000·t + r, k] · w[k, j], which is entry (1000·t + r, j) of the plain product; the 10 row blocks cover the output, so
  the output array ends holding the plain product x · w, entry by entry.
-/
import proofs.«123195_g32882269618962_cont_8to1_b_1715_4_alg».proof.Proof.Gen.KernelIdeal.Frame
import proofs.«123195_g32882269618962_cont_8to1_b_1715_4_alg».proof.Proof.GcnMath
import proofs.«123195_g32882269618962_cont_8to1_b_1715_4_alg».proof.Proof.LibMatmul
import Idealize.ShloMosaic.Lib.KernelVsHost

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offset of a whole-block load or store, as the constant function. -/
theorem off_zero : (![0, 0] : Fin 2 → Nat) = fun _ => 0 := funext fun a => by fin_cases a <;> rfl

/-- The body's payload at an entry: the product of the two loaded blocks into a zero accumulator is, at (r, j), the sum
    over the contraction axis of x0[r, k] · x1[k, j]. -/
theorem pay_apply (x0 : Vec Ideal S1000x1433 .f32) (x1 : Vec Ideal S1433x256 .f32) (r : Fin 1000) (j : Fin 256) :
    k0_pay1 x0 x1 (ix2 r j) = ∑ k : Fin 1433, (x0 (ix2 r k) : EReal) * (x1 (ix2 k j) : EReal) := by
  unfold k0_pay1
  rw [shapeCast_self]
  show FloatOps.matmul (DotDims.plain 1000 1433 256) none _ _ (constant _ .f32 0x00000000#32) (ix2 r j) = _
  exact Cert.Lib.Matmul.matmul_zero_apply none _ _ r j

/-- The printed index maps over the grid: the x block and the output block of point t are row block t, column block 0;
    the weight block is always block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One entry: a sum over the contraction axis of block entries that are, term by term, the arrays' entries on row
    `i 0` and column `i 1` is the product's entry at `i`. -/
theorem entry_eq (X : S10000x1433.Idx → EReal) (W : S1433x256.Idx → EReal)
    (x0 : S1000x1433.Idx → EReal) (x1 : S1433x256.Idx → EReal) (r : Fin 1000) (j : Fin 256) (i : S10000x256.Idx)
    (h0 : ∀ k : Fin 1433, x0 (ix2 r k) = X (ix2 (i 0) k)) (h1 : ∀ k : Fin 1433, x1 (ix2 k j) = W (ix2 k (i 1))) :
    ∑ k : Fin 1433, x0 (ix2 r k) * x1 (ix2 k j) = Cert.Gcn.stage1 X W i := by
  show _ = ∑ k : Fin 1433, X (ix2 (i 0) k) * W (ix2 k (i 1))
  exact Finset.sum_congr rfl fun k _ => by rw [h0, h1]

/-- What point t writes back is block t of the product of the two arrays as the region finds them. -/
theorem flushed_eq (c : Dev nD) (t : Fin cfg0.N) :
    (dat0 (F := Ideal) V c).flushed 2 t
      = ((cfg0.win 2).blk t).view.read (Elt Ideal)
          (Cert.Gcn.stage1 (V c main_arg0 : S10000x1433.Idx → EReal) (V c main_v0 : S1433x256.Idx → EReal)) := by
  show (cfg0.win 2).cut (grid0.coords t) ((dat0 V c).after 2 t) = _
  rw [after0_2]
  unfold out0_2
  rw [View.canon_unit_zero off_zero]
  simp only [View.ld_unit_zero (S := S1000x1433) off_zero, View.ld_unit_zero (S := S1433x256) off_zero]
  obtain ⟨e0, e1, e2, e3, e4, e5⟩ := idx_facts t
  funext y
  have hy : y = ix2 (y 0) (y 1) := eq_ix2 (n0 := 1000) (n1 := 256) y
  have hy0 : (y 0).val < 1000 := (y 0).isLt
  have hy1 : (y 1).val < 256 := (y 1).isLt
  show k0_pay1 (iblk0 V c 0 t) (iblk0 V c 1 t) y
    = Cert.Gcn.stage1 (V c main_arg0 : S10000x1433.Idx → EReal) (V c main_v0 : S1433x256.Idx → EReal)
        (((cfg0.win 2).blk t).view.emb y)
  refine (congrArg (k0_pay1 (iblk0 V c 0 t) (iblk0 V c 1 t)) hy).trans ?_
  refine (pay_apply (iblk0 V c 0 t) (iblk0 V c 1 t) (y 0) (y 1)).trans ?_
  refine entry_eq _ _ (iblk0 V c 0 t) (iblk0 V c 1 t) (y 0) (y 1) _ (fun k => ?_) (fun k => ?_)
  · -- the x block's row r is the array's row 1000 · t + r, which is the output block's row
    have hk : k.val < 1433 := k.isLt
    show V c main_arg0 (((cfg0.win 0).blk t).view.emb (ix2 (y 0) k)) = _
    refine congrArg (V c main_arg0) ?_
    funext a; apply Fin.ext
    match a with
    | ⟨0, _⟩ => show win0_0.index t (0 : Fin 2) * 1000 + 1 * (y 0).val = win0_2.index t (0 : Fin 2) * 1000 + 1 * (y 0).val; omega
    | ⟨1, _⟩ => show win0_0.index t (1 : Fin 2) * 1433 + 1 * k.val = k.val; omega
  · -- the weight block is the whole weight array
    have hk : k.val < 1433 := k.isLt
    show V c main_v0 (((cfg0.win 1).blk t).view.emb (ix2 k (y 1))) = _
    refine congrArg (V c main_v0) ?_
    funext a; apply Fin.ext
    match a with
    | ⟨0, _⟩ => show win0_1.index t (0 : Fin 2) * 1433 + 1 * k.val = k.val; omega
    | ⟨1, _⟩ => show win0_1.index t (1 : Fin 2) * 256 + 1 * (y 1).val = win0_2.index t (1 : Fin 2) * 256 + 1 * (y 1).val; omega

/-- An index of the output array is in point t's block iff each coordinate is in the block's range on its axis. -/
theorem mem_blk (t : Fin cfg0.N) (i : S10000x256.Idx) :
    i ∈ ((cfg0.win 2).blk t).view.set
      ↔ ∀ a : Fin 2, win0_2.index t a * S1000x256.size a ≤ (i a).val
          ∧ (i a).val < win0_2.index t a * S1000x256.size a + S1000x256.size a := by
  show i ∈ ((View.whole main_v1).slice (win0_2.rect t)).set ↔ _
  rw [View.set_slice_whole, Rect.mem_set_unit]
  exact Iff.rfl

/-- Every index of the output array is in the block of the point its row, divided by the block's 1000 rows, names. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have ht : (i 0).val / 1000 < grid0.N := by rw [N_0]; omega
  obtain ⟨e0, e1, e2, e3, e4, e5⟩ := idx_facts ⟨(i 0).val / 1000, ht⟩
  refine ⟨⟨(i 0).val / 1000, ht⟩, flush0_2 _, ?_⟩
  rw [mem_blk]
  intro a
  match a with
  | ⟨0, _⟩ =>
    show win0_2.index ⟨(i 0).val / 1000, ht⟩ (0 : Fin 2) * 1000 ≤ (i 0).val
      ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 256 ≤ (i 1).val
      ∧ (i 1).val < win0_2.index ⟨(i 0).val / 1000, ht⟩ (1 : Fin 2) * 256 + 256
    rw [e5]; omega

/-- After region 0 the output array holds the plain product of the node features and the first weight matrix. -/
theorem final0 (c : Dev nD) :
    (dat0 (F := Ideal) V c).arrAt 2 cfg0.N
      = Cert.Gcn.stage1 (V c main_arg0 : S10000x1433.Idx → EReal) (V c main_v0 : S1433x256.Idx → EReal) :=
  (dat0 V c).arrAt_eq_of_cover 2 _ (fun t _ => flushed_eq V c t) cover

end Cert.KernelIdeal.Region0
end
-- ==== Proof.Region1.lean ====
/-
  The second pallas_call: every block of 400 rows of the adjacency matrix against the whole first product, the bias row
  and the second weight matrix. At a point t the body computes, for row r of its block and column l,
      Σ_j max(Σ_m adj[400·t + r, m] · S1[m, j] + b[0, j], 0) · W[j, l],
  which depends on row 400·t + r of the adjacency matrix only; so what the point writes back is its 400 rows of ONE
  whole-array function of the region's arrays, the blocks tile the rows, and the array ends at that function.
-/
import proofs.«123195_g32882269618962_cont_8to1_b_1715_4_alg».proof.Proof.Gen.KernelIdeal.Frame
import proofs.«123195_g32882269618962_cont_8to1_b_1715_4_alg».proof.Proof.GcnMath
import proofs.«123195_g32882269618962_cont_8to1_b_1715_4_alg».proof.Proof.LibMatmul
import Idealize.ShloMosaic.Lib.ValueIdx
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A one-row matrix broadcast down the rows holds, at (r, j), the row's entry j. -/
theorem rowDown_apply {α : Type} {A B : Nat} (v : (⟨2, ![1, B]⟩ : Shape).Idx → α)
    (h : (⟨2, ![1, B]⟩ : Shape).Broadcasts ⟨2, ![A, B]⟩) (r : Fin A) (j : Fin B) :
    broadcastTo ⟨2, ![A, B]⟩ v h (ix2 r j) = v (ix2 (0 : Fin 1) j) := by
  refine broadcastTo_apply v h (ix2 r j) (ix2 (0 : Fin 1) j) ?_
  intro a
  match a with
  | ⟨0, _⟩ => simp
  | ⟨1, _⟩ =>
    show j.val = if B = 1 then 0 else j.val
    split
    · have := j.isLt; omega
    · rfl

/-- The body's arithmetic on its loaded blocks is the rectified layer's product with the next weight matrix. -/
theorem pay_eq (v0 : Vec Ideal S400x10000 .f32) (v1 : Vec Ideal S10000x256 .f32) (v4 : Vec Ideal S1x256 .f32)
    (v10 : Vec Ideal S256x128 .f32) :
    k1_pay1 v0 v1 v4 v10 = Cert.Gcn.prod (Cert.Gcn.rectRow v0 v1 v4) v10 := by
  funext i
  obtain ⟨r, l, rfl⟩ : ∃ (r : Fin 400) (l : Fin 128), i = ix2 r l := ⟨i 0, i 1, eq_ix2 i⟩
  unfold k1_pay1
  simp only [shapeCast_self]
  show FloatOps.matmul (DotDims.plain 400 256 128) none _ _ (constant ⟨2, ![400, 128]⟩ .f32 0x00000000#32) (ix2 r l) = _
  rw [Cert.Lib.Matmul.matmul_zero_apply, Cert.Gcn.prod_apply]
  refine Finset.sum_congr rfl fun j _ => ?_
  refine congrArg (· * _) ?_
  rw [maximumf_apply, addf_apply, Cert.Gcn.rectRow_apply, rowDown_apply]
  show max (FloatOps.matmul (DotDims.plain 400 10000 256) none _ _ (constant ⟨2, ![400, 256]⟩ .f32 0x00000000#32) (ix2 r j) + _) _ = _
  rw [Cert.Lib.Matmul.matmul_zero_apply]
  rfl

theorem hz : (![0, 0] : Fin 2 → Nat) = fun _ => 0 := funext fun a => by fin_cases a <;> rfl

/-- What the body leaves in the output block, from the input blocks: its one whole-block store of that product. -/
theorem out_eq (x0 : Vec Ideal S400x10000 .f32) (x1 : Vec Ideal S10000x256 .f32) (x2 : Vec Ideal S1x256 .f32)
    (x3 : Vec Ideal S256x128 .f32) (x4 : Vec Ideal S1x128 .f32) :
    out1_5 x0 x1 x2 x3 x4 = Cert.Gcn.prod (Cert.Gcn.rectRow x0 x1 x2) x3 := by
  unfold out1_5
  rw [View.canon_unit_zero hz]
  simp only [View.ld_unit_zero (S := S400x10000) hz, View.ld_unit_zero (S := S10000x256) hz,
    View.ld_unit_zero (S := S1x256) hz, View.ld_unit_zero (S := S256x128) hz]
  exact pay_eq _ _ _ _

/-- The printed index maps over the grid: the adjacency window and the output window sit at block row t, column block
    0; the other windows are whole arrays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_5.index t (0 : Fin 2) = t.val ∧ win1_5.index t (1 : Fin 2) = 0 :=
  (by decide +kernel : ∀ t : Fin grid1.N, _)

/-- The grid has 25 points. -/
theorem lt25 (t : Fin cfg1.N) : t.val < 25 := N_1 ▸ t.isLt

variable (V : (c : Dev nD) → (b : Ref sig .tc) → Buf (Elt Ideal) ((c : Thread nD τ).loc b))

/-- The array the region leaves, as one function of the arrays it finds. -/
abbrev G (c : Dev nD) : S10000x128.Idx → EReal :=
  Cert.Gcn.stage2 (V c main_arg1 : S10000x10000.Idx → EReal) (V c main_v1 : S10000x256.Idx → EReal)
    (V c main_v3 : S1x256.Idx → EReal) (V c main_v4 : S256x128.Idx → EReal)

/-- The row of the arrays that row r of point t's blocks is. -/
def row (t : Fin cfg1.N) (r : Fin 400) : Fin 10000 := ⟨400 * t.val + r.val, by have := lt25 t; have := r.isLt; omega⟩

/-- The adjacency window's block at point t is rows 400·t … of the adjacency matrix. -/
theorem blk0_apply (c : Dev nD) (t : Fin cfg1.N) (r : Fin 400) (k : Fin 10000) :
    (iblk1 V c 0 t : S400x10000.Idx → EReal) (ix2 r k) = (V c main_arg1 : S10000x10000.Idx → EReal) (ix2 (row t r) k) := by
  obtain ⟨e00, e01, -⟩ := idx_facts t
  show (V c main_arg1 : S10000x10000.Idx → EReal) (((cfg1.win 0).blk t).view.emb (ix2 r k)) = _
  refine congrArg _ (funext fun a => Fin.ext ?_)
  match a with
  | ⟨0, _⟩ => show win1_0.index t (0 : Fin 2) * 400 + 1 * r.val = 400 * t.val + r.val; omega
  | ⟨1, _⟩ => show win1_0.index t (1 : Fin 2) * 10000 + 1 * k.val = k.val; omega

/-- The other input windows' blocks are their whole arrays. -/
theorem blk1_eq (c : Dev nD) (t : Fin cfg1.N) : (iblk1 V c 1 t : S10000x256.Idx → EReal) = V c main_v1 := by
  obtain ⟨-, -, e10, e11, -⟩ := idx_facts t
  funext z
  show (V c main_v1 : S10000x256.Idx → EReal) (((cfg1.win 1).blk t).view.emb z) = _
  refine congrArg _ (funext fun a => Fin.ext ?_)
  match a with
  | ⟨0, _⟩ => show win1_1.index t (0 : Fin 2) * 10000 + 1 * (z 0).val = (z 0).val; omega
  | ⟨1, _⟩ => show win1_1.index t (1 : Fin 2) * 256 + 1 * (z 1).val = (z 1).val; omega
theorem blk2_eq (c : Dev nD) (t : Fin cfg1.N) : (iblk1 V c 2 t : S1x256.Idx → EReal) = V c main_v3 := by
  obtain ⟨-, -, -, -, e20, e21, -⟩ := idx_facts t
  funext z
  show (V c main_v3 : S1x256.Idx → EReal) (((cfg1.win 2).blk t).view.emb z) = _
  refine congrArg _ (funext fun a => Fin.ext ?_)
  match a with
  | ⟨0, _⟩ => show win1_2.index t (0 : Fin 2) * 1 + 1 * (z 0).val = (z 0).val; omega
  | ⟨1, _⟩ => show win1_2.index t (1 : Fin 2) * 256 + 1 * (z 1).val = (z 1).val; omega
theorem blk3_eq (c : Dev nD) (t : Fin cfg1.N) : (iblk1 V c 3 t : S256x128.Idx → EReal) = V c main_v4 := by
  obtain ⟨-, -, -, -, -, -, e30, e31, -⟩ := idx_facts t
  funext z
  show (V c main_v4 : S256x128.Idx → EReal) (((cfg1.win 3).blk t).view.emb z) = _
  refine congrArg _ (funext fun a => Fin.ext ?_)
  match a with
  | ⟨0, _⟩ => show win1_3.index t (0 : Fin 2) * 256 + 1 * (z 0).val = (z 0).val; omega
  | ⟨1, _⟩ => show win1_3.index t (1 : Fin 2) * 128 + 1 * (z 1).val = (z 1).val; omega

/-- The output window's block at point t sits at rows 400·t … of its array. -/
theorem emb5 (t : Fin cfg1.N) (r : Fin 400) (l : Fin 128) :
    ((cfg1.win 5).blk t).view.emb (ix2 r l) = (ix2 (row t r) l : S10000x128.Idx) := by
  obtain ⟨-, -, -, -, -, -, -, -, e50, e51⟩ := idx_facts t
  refine funext fun a => Fin.ext ?_
  match a with
  | ⟨0, _⟩ => show win1_5.index t (0 : Fin 2) * 400 + 1 * r.val = 400 * t.val + r.val; omega
  | ⟨1, _⟩ => show win1_5.index t (1 : Fin 2) * 128 + 1 * l.val = l.val; omega

/-- What point t writes back is its block of rows of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5, out_eq]
  funext y
  obtain ⟨r, l, rfl⟩ : ∃ (r : Fin 400) (l : Fin 128), y = ix2 r l := ⟨y 0, y 1, eq_ix2 y⟩
  show Cert.Gcn.prod (Cert.Gcn.rectRow (iblk1 V c 0 t : S400x10000.Idx → EReal) (iblk1 V c 1 t : S10000x256.Idx → EReal)
      (iblk1 V c 2 t : S1x256.Idx → EReal)) (iblk1 V c 3 t : S256x128.Idx → EReal) (ix2 r l)
    = G V c (((cfg1.win 5).blk t).view.emb (ix2 r l))
  rw [emb5, blk1_eq, blk2_eq, blk3_eq]
  exact Cert.Gcn.stage2_rows _ _ _ _ _ (row t) (blk0_apply V c t) r l

/-- An index of the output array is in point t's block iff each coordinate is in the block's range on its axis. -/
theorem mem_blk (t : Fin cfg1.N) (i : S10000x128.Idx) :
    i ∈ ((cfg1.win 5).blk t).view.set ↔ ∀ a : Fin 2, win1_5.index t a * S400x128.size a ≤ (i a).val
      ∧ (i a).val < win1_5.index t a * S400x128.size a + S400x128.size a := by
  show i ∈ ((View.whole main_v6).slice (win1_5.rect t)).set ↔ _
  rw [View.set_slice_whole, Rect.mem_set_unit]
  exact Iff.rfl

/-- Every row lies in the block of the point its number divided by 400 names. -/
theorem cover (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  let t : Fin cfg1.N := ⟨(i 0).val / 400, by rw [show cfg1.N = 25 from N_1]; omega⟩
  obtain ⟨-, -, -, -, -, -, -, -, e50, e51⟩ := idx_facts t
  have ht : t.val = (i 0).val / 400 := rfl
  refine ⟨t, flush1_5 t, ?_⟩
  rw [mem_blk]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 128 ≤ (i 1).val ∧ (i 1).val < win1_5.index t (1 : Fin 2) * 128 + 128; omega

/-- The region's output array ends at the fused layer-and-product of the arrays the region finds. -/
theorem final1 (c : Dev nD) :
    (dat1 (F := Ideal) V c).arrAt 5 cfg1.N
      = Cert.Gcn.stage2 (V c main_arg1 : S10000x10000.Idx → EReal) (V c main_v1 : S10000x256.Idx → EReal)
          (V c main_v3 : S1x256.Idx → EReal) (V c main_v4 : S256x128.Idx → EReal) :=
  (dat1 (F := Ideal) V c).arrAt_eq_of_cover 5 (G V c) (fun t _ => flushed_eq V c t) cover

end Cert.KernelIdeal.Region1

end
-- ==== Proof.Region2.lean ====
/-
  The third pallas_call: every block of 400 rows of the adjacency matrix against the whole second product, the second
  bias row, the classifier's weight matrix and its bias row. At a point t the body computes, for row r of its block and
  column l,
      Σ_j max(Σ_m adj[400·t + r, m] · S2[m, j] + b[0, j], 0) · W[j, l] + bo[0, l],
  which depends on row 400·t + r of the adjacency matrix only; so what the point writes back is its 400 rows of ONE
  whole-array function of the region's arrays, the blocks tile the rows, and the array ends at that function.
-/
import proofs.«123195_g32882269618962_cont_8to1_b_1715_4_alg».proof.Proof.Gen.KernelIdeal.Frame
import proofs.«123195_g32882269618962_cont_8to1_b_1715_4_alg».proof.Proof.GcnMath
import proofs.«123195_g32882269618962_cont_8to1_b_1715_4_alg».proof.Proof.LibMatmul
import Idealize.ShloMosaic.Lib.ValueIdx
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A one-row matrix broadcast down the rows holds, at (r, j), the row's entry j. -/
theorem rowDown_apply {α : Type} {A B : Nat} (v : (⟨2, ![1, B]⟩ : Shape).Idx → α)
    (h : (⟨2, ![1, B]⟩ : Shape).Broadcasts ⟨2, ![A, B]⟩) (r : Fin A) (j : Fin B) :
    broadcastTo ⟨2, ![A, B]⟩ v h (ix2 r j) = v (ix2 (0 : Fin 1) j) := by
  refine broadcastTo_apply v h (ix2 r j) (ix2 (0 : Fin 1) j) ?_
  intro a
  match a with
  | ⟨0, _⟩ => simp
  | ⟨1, _⟩ =>
    show j.val = if B = 1 then 0 else j.val
    split
    · have := j.isLt; omega
    · rfl

/-- The body's arithmetic on its loaded blocks is the rectified layer's product with the classifier's weight matrix, plus
    the classifier's bias row. -/
theorem pay_eq (v0 : Vec Ideal S400x10000 .f32) (v1 : Vec Ideal S10000x128 .f32) (v4 : Vec Ideal S1x128 .f32)
    (v10 : Vec Ideal S128x128 .f32) (v13 : Vec Ideal S1x128 .f32) :
    k2_pay1 v0 v1 v4 v10 v13 = Cert.Gcn.affineRow (Cert.Gcn.rectRow v0 v1 v4) v10 v13 := by
  funext i
  obtain ⟨r, l, rfl⟩ : ∃ (r : Fin 400) (l : Fin 128), i = ix2 r l := ⟨i 0, i 1, eq_ix2 i⟩
  unfold k2_pay1
  simp only [shapeCast_self]
  rw [addf_apply, Cert.Gcn.affineRow_apply, rowDown_apply]
  refine congrArg (· + _) ?_
  show FloatOps.matmul (DotDims.plain 400 128 128) none _ _ (constant ⟨2, ![400, 128]⟩ .f32 0x00000000#32) (ix2 r l) = _
  rw [Cert.Lib.Matmul.matmul_zero_apply]
  refine Finset.sum_congr rfl fun j _ => ?_
  refine congrArg (· * _) ?_
  rw [maximumf_apply, addf_apply, Cert.Gcn.rectRow_apply, rowDown_apply]
  show max (FloatOps.matmul (DotDims.plain 400 10000 128) none _ _ (constant ⟨2, ![400, 128]⟩ .f32 0x00000000#32) (ix2 r j) + _) _ = _
  rw [Cert.Lib.Matmul.matmul_zero_apply]
  rfl

theorem hz : (![0, 0] : Fin 2 → Nat) = fun _ => 0 := funext fun a => by fin_cases a <;> rfl

/-- What the body leaves in the output block, from the input blocks: its one whole-block store of that value. -/
theorem out_eq (x0 : Vec Ideal S400x10000 .f32) (x1 : Vec Ideal S10000x128 .f32) (x2 : Vec Ideal S1x128 .f32)
    (x3 : Vec Ideal S128x128 .f32) (x4 : Vec Ideal S1x128 .f32) :
    out2_5 x0 x1 x2 x3 x4 = Cert.Gcn.affineRow (Cert.Gcn.rectRow x0 x1 x2) x3 x4 := by
  unfold out2_5
  rw [View.canon_unit_zero hz]
  simp only [View.ld_unit_zero (S := S400x10000) hz, View.ld_unit_zero (S := S10000x128) hz,
    View.ld_unit_zero (S := S1x128) hz, View.ld_unit_zero (S := S128x128) hz]
  exact pay_eq _ _ _ _ _

/-- The printed index maps over the grid: the adjacency window and the output window sit at block row t, column block
    0; the other windows are whole arrays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has 25 points. -/
theorem lt25 (t : Fin cfg2.N) : t.val < 25 := N_2 ▸ t.isLt

variable (V : (c : Dev nD) → (b : Ref sig .tc) → Buf (Elt Ideal) ((c : Thread nD τ).loc b))

/-- The array the region leaves, as one function of the arrays it finds. -/
abbrev G (c : Dev nD) : S10000x128.Idx → EReal :=
  Cert.Gcn.stage3 (V c main_arg1 : S10000x10000.Idx → EReal) (V c main_v6 : S10000x128.Idx → EReal)
    (V c main_v8 : S1x128.Idx → EReal) (V c main_v9 : S128x128.Idx → EReal) (V c main_v11 : S1x128.Idx → EReal)

/-- The row of the arrays that row r of point t's blocks is. -/
def row (t : Fin cfg2.N) (r : Fin 400) : Fin 10000 := ⟨400 * t.val + r.val, by have := lt25 t; have := r.isLt; omega⟩

/-- The adjacency window's block at point t is rows 400·t … of the adjacency matrix. -/
theorem blk0_apply (c : Dev nD) (t : Fin cfg2.N) (r : Fin 400) (k : Fin 10000) :
    (iblk2 V c 0 t : S400x10000.Idx → EReal) (ix2 r k) = (V c main_arg1 : S10000x10000.Idx → EReal) (ix2 (row t r) k) := by
  obtain ⟨e00, e01, -⟩ := idx_facts t
  show (V c main_arg1 : S10000x10000.Idx → EReal) (((cfg2.win 0).blk t).view.emb (ix2 r k)) = _
  refine congrArg _ (funext fun a => Fin.ext ?_)
  match a with
  | ⟨0, _⟩ => show win2_0.index t (0 : Fin 2) * 400 + 1 * r.val = 400 * t.val + r.val; omega
  | ⟨1, _⟩ => show win2_0.index t (1 : Fin 2) * 10000 + 1 * k.val = k.val; omega

/-- The other input windows' blocks are their whole arrays. -/
theorem blk1_eq (c : Dev nD) (t : Fin cfg2.N) : (iblk2 V c 1 t : S10000x128.Idx → EReal) = V c main_v6 := by
  obtain ⟨-, -, e10, e11, -⟩ := idx_facts t
  funext z
  show (V c main_v6 : S10000x128.Idx → EReal) (((cfg2.win 1).blk t).view.emb z) = _
  refine congrArg _ (funext fun a => Fin.ext ?_)
  match a with
  | ⟨0, _⟩ => show win2_1.index t (0 : Fin 2) * 10000 + 1 * (z 0).val = (z 0).val; omega
  | ⟨1, _⟩ => show win2_1.index t (1 : Fin 2) * 128 + 1 * (z 1).val = (z 1).val; omega
theorem blk2_eq (c : Dev nD) (t : Fin cfg2.N) : (iblk2 V c 2 t : S1x128.Idx → EReal) = V c main_v8 := by
  obtain ⟨-, -, -, -, e20, e21, -⟩ := idx_facts t
  funext z
  show (V c main_v8 : S1x128.Idx → EReal) (((cfg2.win 2).blk t).view.emb z) = _
  refine congrArg _ (funext fun a => Fin.ext ?_)
  match a with
  | ⟨0, _⟩ => show win2_2.index t (0 : Fin 2) * 1 + 1 * (z 0).val = (z 0).val; omega
  | ⟨1, _⟩ => show win2_2.index t (1 : Fin 2) * 128 + 1 * (z 1).val = (z 1).val; omega
theorem blk3_eq (c : Dev nD) (t : Fin cfg2.N) : (iblk2 V c 3 t : S128x128.Idx → EReal) = V c main_v9 := by
  obtain ⟨-, -, -, -, -, -, e30, e31, -⟩ := idx_facts t
  funext z
  show (V c main_v9 : S128x128.Idx → EReal) (((cfg2.win 3).blk t).view.emb z) = _
  refine congrArg _ (funext fun a => Fin.ext ?_)
  match a with
  | ⟨0, _⟩ => show win2_3.index t (0 : Fin 2) * 128 + 1 * (z 0).val = (z 0).val; omega
  | ⟨1, _⟩ => show win2_3.index t (1 : Fin 2) * 128 + 1 * (z 1).val = (z 1).val; omega
theorem blk4_eq (c : Dev nD) (t : Fin cfg2.N) : (iblk2 V c 4 t : S1x128.Idx → EReal) = V c main_v11 := by
  obtain ⟨-, -, -, -, -, -, -, -, e40, e41, -⟩ := idx_facts t
  funext z
  show (V c main_v11 : S1x128.Idx → EReal) (((cfg2.win 4).blk t).view.emb z) = _
  refine congrArg _ (funext fun a => Fin.ext ?_)
  match a with
  | ⟨0, _⟩ => show win2_4.index t (0 : Fin 2) * 1 + 1 * (z 0).val = (z 0).val; omega
  | ⟨1, _⟩ => show win2_4.index t (1 : Fin 2) * 128 + 1 * (z 1).val = (z 1).val; omega

/-- The output window's block at point t sits at rows 400·t … of its array. -/
theorem emb5 (t : Fin cfg2.N) (r : Fin 400) (l : Fin 128) :
    ((cfg2.win 5).blk t).view.emb (ix2 r l) = (ix2 (row t r) l : S10000x128.Idx) := by
  obtain ⟨-, -, -, -, -, -, -, -, -, -, e50, e51⟩ := idx_facts t
  refine funext fun a => Fin.ext ?_
  match a with
  | ⟨0, _⟩ => show win2_5.index t (0 : Fin 2) * 400 + 1 * r.val = 400 * t.val + r.val; omega
  | ⟨1, _⟩ => show win2_5.index t (1 : Fin 2) * 128 + 1 * l.val = l.val; omega

/-- What point t writes back is its block of rows of `G`. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5, out_eq]
  funext y
  obtain ⟨r, l, rfl⟩ : ∃ (r : Fin 400) (l : Fin 128), y = ix2 r l := ⟨y 0, y 1, eq_ix2 y⟩
  show Cert.Gcn.affineRow (Cert.Gcn.rectRow (iblk2 V c 0 t : S400x10000.Idx → EReal) (iblk2 V c 1 t : S10000x128.Idx → EReal)
      (iblk2 V c 2 t : S1x128.Idx → EReal)) (iblk2 V c 3 t : S128x128.Idx → EReal) (iblk2 V c 4 t : S1x128.Idx → EReal) (ix2 r l)
    = G V c (((cfg2.win 5).blk t).view.emb (ix2 r l))
  rw [emb5, blk1_eq, blk2_eq, blk3_eq, blk4_eq]
  exact Cert.Gcn.stage3_rows _ _ _ _ _ _ (row t) (blk0_apply V c t) r l

/-- An index of the output array is in point t's block iff each coordinate is in the block's range on its axis. -/
theorem mem_blk (t : Fin cfg2.N) (i : S10000x128.Idx) :
    i ∈ ((cfg2.win 5).blk t).view.set ↔ ∀ a : Fin 2, win2_5.index t a * S400x128.size a ≤ (i a).val
      ∧ (i a).val < win2_5.index t a * S400x128.size a + S400x128.size a := by
  show i ∈ ((View.whole main_v12).slice (win2_5.rect t)).set ↔ _
  rw [View.set_slice_whole, Rect.mem_set_unit]
  exact Iff.rfl

/-- Every row lies in the block of the point its number divided by 400 names. -/
theorem cover (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  let t : Fin cfg2.N := ⟨(i 0).val / 400, by rw [show cfg2.N = 25 from N_2]; omega⟩
  obtain ⟨-, -, -, -, -, -, -, -, -, -, e50, e51⟩ := idx_facts t
  have ht : t.val = (i 0).val / 400 := rfl
  refine ⟨t, flush2_5 t, ?_⟩
  rw [mem_blk]
  intro a
  match a with
  | ⟨0, _⟩ => show win2_5.index t (0 : Fin 2) * 400 ≤ (i 0).val ∧ (i 0).val < win2_5.index t (0 : Fin 2) * 400 + 400; omega
  | ⟨1, _⟩ => show win2_5.index t (1 : Fin 2) * 128 ≤ (i 1).val ∧ (i 1).val < win2_5.index t (1 : Fin 2) * 128 + 128; omega

/-- The region's output array ends at the fused layer-and-classifier of the arrays the region finds. -/
theorem final2 (c : Dev nD) :
    (dat2 (F := Ideal) V c).arrAt 5 cfg2.N
      = Cert.Gcn.stage3 (V c main_arg1 : S10000x10000.Idx → EReal) (V c main_v6 : S10000x128.Idx → EReal)
          (V c main_v8 : S1x128.Idx → EReal) (V c main_v9 : S128x128.Idx → EReal) (V c main_v11 : S1x128.Idx → EReal) :=
  (dat2 (F := Ideal) V c).arrAt_eq_of_cover 5 (G V c) (fun t _ => flushed_eq V c t) cover

end Cert.KernelIdeal.Region2

end
-- ==== Proof.KernelValue.lean ====
/-
  The kernel program's result is the plain network of its arguments.

  Read through the run, the result array is the leading 7 columns of what the third region leaves; each region leaves one
  whole-array stage of the arrays it finds; the arrays a region finds are the arguments, the earlier regions' outputs, and
  host-side zero paddings of the weights and bias rows. On the narrow columns the padded stages are the plain network.
-/
import proofs.«123195_g32882269618962_cont_8to1_b_1715_4_alg».proof.Proof.Gen.KernelIdeal.Frame
import proofs.«123195_g32882269618962_cont_8to1_b_1715_4_alg».proof.Proof.GcnMath
import proofs.«123195_g32882269618962_cont_8to1_b_1715_4_alg».proof.Proof.HostReads
import proofs.«123195_g32882269618962_cont_8to1_b_1715_4_alg».proof.Proof.PadReads
import proofs.«123195_g32882269618962_cont_8to1_b_1715_4_alg».proof.Proof.Region0
import proofs.«123195_g32882269618962_cont_8to1_b_1715_4_alg».proof.Proof.Region1
import proofs.«123195_g32882269618962_cont_8to1_b_1715_4_alg».proof.Proof.Region2

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result array after the run is the plain network of the argument arrays as launched. -/
theorem result_eq (c : Dev nD) :
    W17 m ρ c (Proc.devRef .tc main_v13)
      = Cert.Gcn.logits (m ((c : Thread nD τ).loc main_arg0) : S10000x1433.Idx → EReal) (m ((c : Thread nD τ).loc main_arg1) : S10000x10000.Idx → EReal)
          (m ((c : Thread nD τ).loc main_arg2) : S1433x200.Idx → EReal) (m ((c : Thread nD τ).loc main_arg3) : S200.Idx → EReal)
          (m ((c : Thread nD τ).loc main_arg4) : S200x80.Idx → EReal) (m ((c : Thread nD τ).loc main_arg5) : S80.Idx → EReal)
          (m ((c : Thread nD τ).loc main_arg6) : S80x7.Idx → EReal) (m ((c : Thread nD τ).loc main_arg7) : S7.Idx → EReal) := by
  rw [HostReads.W17_v13]
  funext i
  obtain ⟨n, k, rfl⟩ : ∃ (n : Fin 10000) (k : Fin 7), i = ix2 n k := ⟨i 0, i 1, eq_ix2 i⟩
  rw [PadReads.slice_narrow]
  rw [Region2.final2 (V15 m ρ) c, HostReads.V15_arg1, HostReads.V15_v6, HostReads.V15_v8, HostReads.V15_v9, HostReads.V15_v11]
  rw [Region1.final1 (V8 m ρ) c, HostReads.V8_arg1, HostReads.V8_v1, HostReads.V8_v3, HostReads.V8_v4]
  rw [Region0.final0 (V2 m ρ) c, HostReads.V2_arg0, HostReads.V2_v0]
  exact Cert.Gcn.padded_eq (by decide : 200 ≤ 256) (by decide : 80 ≤ 128) (by decide : 7 ≤ 128) _ _ _ _ _ _ _ _ _ _ _ _ _ _
    (PadReads.W1p_narrow _) (PadReads.b1p_narrow _) (PadReads.W2p_narrow _) (PadReads.W2p_zero _)
    (PadReads.b2p_narrow _) (PadReads.Wfcp_narrow _) (PadReads.Wfcp_zero _) (PadReads.bfcp_narrow _) n k

end Cert.KernelIdeal.KernelValue

end
-- ==== Proof.RefValue.lean ====
/-
  The reference's result is the plain network of its arguments.

  Its run ends with the result buffer at the composed term of its twenty host operations: three dense layers, each a
  dot_general plus a bias carried through two broadcasts, the first two rectified against a broadcast zero constant, and
  between the layers the products with the adjacency matrix. Read layer by layer this is `Cert.Gcn.logits`.
-/
import proofs.«123195_g32882269618962_cont_8to1_b_1715_4_alg».proof.Proof.Gen.ReferenceIdeal.Run
import proofs.«123195_g32882269618962_cont_8to1_b_1715_4_alg».proof.Proof.GcnMath
import proofs.«123195_g32882269618962_cont_8to1_b_1715_4_alg».proof.Proof.LibMatmul
import proofs.«123195_g32882269618962_cont_8to1_b_1715_4_alg».proof.Proof.LibDense

noncomputable section

namespace Cert.ReferenceIdeal.RefValue

open Idealize.ShloMosaic Idealize.ShloMosaic.TcCoe Idealize.ShloMosaic.ValueIdx
open Cert.ReferenceIdeal Cert.ReferenceIdeal.Facts₀ Cert.ReferenceIdeal.Facts Cert.Lib.Dense

/-- The host's dot_general of two matrices, contracting the left columns with the right rows, is the plain product. -/
theorem dot_eq_prod {A K C : Nat} (x : FVec Ideal ⟨2, ![A, K]⟩ .f32) (w : FVec Ideal ⟨2, ![K, C]⟩ .f32) :
    Host.dotGeneral (DotDims.plain A K C) none x w = Cert.Gcn.prod x w := by
  funext i
  obtain ⟨a, c, rfl⟩ : ∃ (a : Fin A) (c : Fin C), i = ix2 a c := ⟨i 0, i 1, eq_ix2 i⟩
  show FloatOps.dotGeneral (DotDims.plain A K C) none .single x w (ix2 a c) = _
  rw [Cert.Lib.Matmul.dotGeneral_apply, Cert.Gcn.prod_apply]

/-- The run's result term is the plain network of the arguments. -/
theorem result_eq (x : FVec Ideal S10000x1433 .f32) (adj : FVec Ideal S10000x10000 .f32) (W1 : FVec Ideal S1433x200 .f32)
    (b1 : FVec Ideal S200 .f32) (W2 : FVec Ideal S200x80 .f32) (b2 : FVec Ideal S80 .f32) (Wfc : FVec Ideal S80x7 .f32)
    (bfc : FVec Ideal S7 .f32) :
    addf (Host.dotGeneral dot_S10000x80_S80x7_S10000x7_1_0_0_1_n_n none (maximumf (addf (Host.dotGeneral dot_S10000x10000_S10000x80_S10000x80_1_0_0_1_n_n none adj (Host.dotGeneral dot_S10000x200_S200x80_S10000x80_1_0_0_1_n_n none (maximumf (addf (Host.dotGeneral dot_S10000x10000_S10000x200_S10000x200_1_0_0_1_n_n none adj (Host.dotGeneral dot_S10000x1433_S1433x200_S10000x200_1_0_0_1_n_n none x W1)) (broadcastInDim S10000x200 ![0, 1] bcast_S1x200_S10000x200_0_1 (broadcastInDim S1x200 ![1] bcast_S200_S1x200_1 b1))) (broadcastInDim S10000x200 ![] bcast_S_S10000x200 (constant (F := Ideal) S_ .f32 0x00000000#32))) W2)) (broadcastInDim S10000x80 ![0, 1] bcast_S1x80_S10000x80_0_1 (broadcastInDim S1x80 ![1] bcast_S80_S1x80_1 b2))) (broadcastInDim S10000x80 ![] bcast_S_S10000x80 (constant (F := Ideal) S_ .f32 0x00000000#32))) Wfc) (broadcastInDim S10000x7 ![0, 1] bcast_S1x7_S10000x7_0_1 (broadcastInDim S1x7 ![1] bcast_S7_S1x7_1 bfc))
      = Cert.Gcn.logits x adj W1 b1 W2 b2 Wfc bfc := by
  have e1 : Host.dotGeneral dot_S10000x1433_S1433x200_S10000x200_1_0_0_1_n_n none x W1 = Cert.Gcn.prod x W1 :=
    dot_eq_prod (A := 10000) (K := 1433) (C := 200) x W1
  rw [e1]
  have r1 : maximumf (addf (Host.dotGeneral dot_S10000x10000_S10000x200_S10000x200_1_0_0_1_n_n none adj (Cert.Gcn.prod x W1))
        (broadcastInDim S10000x200 ![0, 1] bcast_S1x200_S10000x200_0_1 (broadcastInDim S1x200 ![1] bcast_S200_S1x200_1 b1)))
      (broadcastInDim S10000x200 ![] bcast_S_S10000x200 (constant (F := Ideal) S_ .f32 0x00000000#32))
      = rectified adj (Cert.Gcn.prod x W1) b1 :=
    host_rectified (A := 10000) (K := 10000) (C := 200) adj (Cert.Gcn.prod x W1) b1 bcast_S200_S1x200_1 bcast_S1x200_S10000x200_0_1 bcast_S_S10000x200 none
  rw [r1]
  have e2 : Host.dotGeneral dot_S10000x200_S200x80_S10000x80_1_0_0_1_n_n none (rectified adj (Cert.Gcn.prod x W1) b1) W2
      = Cert.Gcn.prod (rectified adj (Cert.Gcn.prod x W1) b1) W2 :=
    dot_eq_prod (A := 10000) (K := 200) (C := 80) _ W2
  rw [e2]
  have r2 : maximumf (addf (Host.dotGeneral dot_S10000x10000_S10000x80_S10000x80_1_0_0_1_n_n none adj (Cert.Gcn.prod (rectified adj (Cert.Gcn.prod x W1) b1) W2))
        (broadcastInDim S10000x80 ![0, 1] bcast_S1x80_S10000x80_0_1 (broadcastInDim S1x80 ![1] bcast_S80_S1x80_1 b2)))
      (broadcastInDim S10000x80 ![] bcast_S_S10000x80 (constant (F := Ideal) S_ .f32 0x00000000#32))
      = rectified adj (Cert.Gcn.prod (rectified adj (Cert.Gcn.prod x W1) b1) W2) b2 :=
    host_rectified (A := 10000) (K := 10000) (C := 80) adj _ b2 bcast_S80_S1x80_1 bcast_S1x80_S10000x80_0_1 bcast_S_S10000x80 none
  rw [r2]
  exact host_affine (A := 10000) (K := 80) (C := 7) _ Wfc bfc bcast_S7_S1x7_1 bcast_S1x7_S10000x7_0_1 none

end Cert.ReferenceIdeal.RefValue

end
-- ==== Proof.lean ====
/-
  The certificate of a two-layer graph convolution with a linear classifier, computed by three row-blocked kernels over
  zero-padded feature axes, against the plain jnp network
      logits = relu(adj · (relu(adj · (x · W1) + b1) · W2) + b2) · Wfc + bfc.

  The three frames are the generated ones (the reference's is its run with the result dropped). The idealization rewrote
  nothing, so its preservation claim is trivial. For the value claim both programs are run with the result named: the
  kernel program's result array ends at the fold of buffer contents through its regions and host stretches, which is the
  leading 7 columns of the padded network's last stage (KernelValue); the reference's ends at its operations' composed
  term, which is the plain network layer by layer (RefValue). The padded network equals the plain one on the narrow
  columns because every widened column meets a zero row of the next weight matrix, and a product with zero is zero on
  the extended reals whatever the other factor is (GcnMath): no finiteness of the inputs is used.
-/
import proofs.«123195_g32882269618962_cont_8to1_b_1715_4_alg».proof.Defs
import proofs.«123195_g32882269618962_cont_8to1_b_1715_4_alg».proof.Proof.Gen.Kernel
import proofs.«123195_g32882269618962_cont_8to1_b_1715_4_alg».proof.Proof.Gen.Kernel.Skeleton
import proofs.«123195_g32882269618962_cont_8to1_b_1715_4_alg».proof.Proof.Gen.Kernel.Launch
import proofs.«123195_g32882269618962_cont_8to1_b_1715_4_alg».proof.Proof.Gen.Kernel.Points
import proofs.«123195_g32882269618962_cont_8to1_b_1715_4_alg».proof.Proof.Gen.Kernel.Frame
import proofs.«123195_g32882269618962_cont_8to1_b_1715_4_alg».proof.Proof.Gen.KernelIdeal
import proofs.«123195_g32882269618962_cont_8to1_b_1715_4_alg».proof.Proof.Gen.KernelIdeal.Skeleton
import proofs.«123195_g32882269618962_cont_8to1_b_1715_4_alg».proof.Proof.Gen.KernelIdeal.Launch
import proofs.«123195_g32882269618962_cont_8to1_b_1715_4_alg».proof.Proof.Gen.KernelIdeal.Points
import proofs.«123195_g32882269618962_cont_8to1_b_1715_4_alg».proof.Proof.Gen.KernelIdeal.Frame
import proofs.«123195_g32882269618962_cont_8to1_b_1715_4_alg».proof.Proof.Gen.ReferenceIdeal
import proofs.«123195_g32882269618962_cont_8to1_b_1715_4_alg».proof.Proof.Gen.ReferenceIdeal.Run
import proofs.«123195_g32882269618962_cont_8to1_b_1715_4_alg».proof.Proof.Gen.Pre_finite_inputs
import proofs.«123195_g32882269618962_cont_8to1_b_1715_4_alg».proof.Proof.KRun
import proofs.«123195_g32882269618962_cont_8to1_b_1715_4_alg».proof.Proof.KernelValue
import proofs.«123195_g32882269618962_cont_8to1_b_1715_4_alg».proof.Proof.RefValue
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the plain network of the (agreeing) arguments. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.result_eq m ρ c), (h c).2⟩)
      (Cert.KernelIdeal.RunNamed.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact Cert.ReferenceIdeal.RefValue.result_eq _ _ _ _ _ _ _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
